-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x500 : Shape := ⟨2, ![1024, 500]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x500 : S_.BroadcastsInDim S1024x500 (![] : Fin 0 → Fin S1024x500.rank)
  reducesTo_S1024x500_S_d0_1 : S1024x500.ReducesTo [0, 1] S_

variable [Facts]

def fn {F : FTy → Type} [FloatOps F] (main_arg0 : FVec F S512x1024 .f32) (main_arg1 : FVec F S1024x500 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x500 .f32 := Host.absf main_arg1
  let main_cst_0 : FVec F S_ .f32 := constant S_ .f32 0x7F800000#32
  let main_v5 : FVec F S1024x500 .f32 := broadcastInDim S1024x500 ![] bcast_S_S1024x500 main_cst_0
  let main_v6 : IVec S1024x500 1 := cmpf .olt main_v4 main_v5
  let main_c_1 : IVec S_ 1 := constantI S_ 1 1#1
  let main_v7 : IVec S_ 1 := (fun x v => Host.reduce IntOp.andi x v reducesTo_S1024x500_S_d0_1 h_S_) main_v6 main_c_1
  let main_v8 : IVec S_ 1 := andi main_v3 main_v7
  main_v8
-- ==== Kernel.lean ====
abbrev S512x1024 : Shape := ⟨2, ![512, 1024]⟩
abbrev S1024x500 : Shape := ⟨2, ![1024, 500]⟩
abbrev S512x500 : Shape := ⟨2, ![512, 500]⟩
abbrev S512x100x5 : Shape := ⟨3, ![512, 100, 5]⟩
abbrev S512x5x100 : Shape := ⟨3, ![512, 5, 100]⟩
abbrev S512x100 : Shape := ⟨2, ![512, 100]⟩
abbrev S128x5x100 : Shape := ⟨3, ![128, 5, 100]⟩
abbrev S128x100 : Shape := ⟨2, ![128, 100]⟩
abbrev S128x128x100 : Shape := ⟨3, ![128, 128, 100]⟩
abbrev S128x1x100 : Shape := ⟨3, ![128, 1, 100]⟩
abbrev S1x128x100 : Shape := ⟨3, ![1, 128, 100]⟩

abbrev nBuf : Space → Nat
  | .hbm => 6
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S1024x500, .f32⟩
  | .hbm, ⟨2, _⟩ => ⟨S512x500, .f32⟩
  | .hbm, ⟨3, _⟩ => ⟨S512x100x5, .f32⟩
  | .hbm, ⟨4, _⟩ => ⟨S512x5x100, .f32⟩
  | .hbm, ⟨5, _⟩ => ⟨S512x100, .f32⟩
  | .local _ .vmem, ⟨0, _⟩ => ⟨S512x1024, .f32⟩
  | .local _ .vmem, ⟨1, _⟩ => ⟨S1024x500, .f32⟩
  | .local _ .vmem, ⟨2, _⟩ => ⟨S512x500, .f32⟩
  | .local _ .vmem, ⟨3, _⟩ => ⟨S128x5x100, .f32⟩
  | .local _ .vmem, ⟨4, _⟩ => ⟨S128x5x100, .f32⟩
  | .local _ .vmem, ⟨5, _⟩ => ⟨S128x5x100, .f32⟩
  | .local _ .vmem, ⟨6, _⟩ => ⟨S128x5x100, .f32⟩
  | .local _ .vmem, ⟨7, _⟩ => ⟨S128x100, .f32⟩
  | .local _ .vmem, ⟨8, _⟩ => ⟨S128x100, .f32⟩
  | .local _ .vmem, ⟨9, _⟩ => ⟨S128x100, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v72 : BitVec 1 := Scalar.cmpi .eq arg1 c3_i32
  let v73 : BitVec 32 := Scalar.extui v72
  let c0_i32_12 : BitVec 32 := 0#32
  let v74 : BitVec 1 := Scalar.cmpi .ne v73 c0_i32_12
  v74

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x5x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x5x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x500_S1024x500_0_0 : ∀ a, (![0, 0] : Fin 2 → Nat) a + S1024x500.size a ≤ S1024x500.size a
  h_S1024x500 : 0 < S1024x500.numel
  inb_S512x500_S512x500_0_0 : ∀ a, (![0, 0] : Fin 2 → Nat) a + S512x500.size a ≤ S512x500.size a
  h_S512x500 : 0 < S512x500.numel
  shapeCasts_S512x500_S512x100x5 : S512x500.ShapeCasts S512x100x5
  transposes_S512x100x5_S512x5x100_0_2_1 : S512x100x5.Transposes [0, 2, 1] S512x5x100
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S128x5x100_S128x5x100_0_0_0 : ∀ a, (![0, 0, 0] : Fin 3 → Nat) a + S128x5x100.size a ≤ S128x5x100.size a
  h_S128x5x100 : 0 < S128x5x100.numel
  shapeCasts_S128x5x100_S128x5x100 : S128x5x100.ShapeCasts S128x5x100
  slices_S128x5x100_o0_0_0_S128x1x100 : S128x5x100.Slices ![0, 0, 0] S128x1x100
  shapeCasts_S128x1x100_S128x100 : S128x1x100.ShapeCasts S128x100
  shapeCasts_S128x100_S128x1x100 : S128x100.ShapeCasts S128x1x100
  shapeCasts_S128x100_S1x128x100 : S128x100.ShapeCasts S1x128x100
  broadcasts_S128x1x100_S128x128x100 : S128x1x100.Broadcasts S128x128x100
  broadcasts_S1x128x100_S128x128x100 : S1x128x100.Broadcasts S128x128x100
  slices_S128x5x100_o0_1_0_S128x1x100 : S128x5x100.Slices ![0, 1, 0] S128x1x100
  slices_S128x5x100_o0_2_0_S128x1x100 : S128x5x100.Slices ![0, 2, 0] S128x1x100
  slices_S128x5x100_o0_3_0_S128x1x100 : S128x5x100.Slices ![0, 3, 0] S128x1x100
  slices_S128x5x100_o0_4_0_S128x1x100 : S128x5x100.Slices ![0, 4, 0] S128x1x100
  reduces_S128x128x100_S128x100 : S128x128x100.Reduces [1] S128x100
  dot_S512x1024_S1024x500_S512x500_1_0_0_1_n_n_wf : DotDims.WF S512x1024 S1024x500 S512x500 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x500.size a ≤ S1024x500.size a
  hwx0_1 : ∀ i : grid0.Coords, EltTy.bits .f32 = 32 ∨ (Rect.block (s := S1024x500) S1024x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x500.size a ≤ S512x500.size a
  hwx0_2 : ∀ i : grid0.Coords, EltTy.bits .f32 = 32 ∨ (Rect.block (s := S512x500) S512x500.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5x100.size a ≤ S512x5x100.size a
  hwx1_0 : ∀ i : grid1.Coords, EltTy.bits .f32 = 32 ∨ (Rect.block (s := S512x5x100) S128x5x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x5x100.size a ≤ S512x5x100.size a
  hwx1_1 : ∀ i : grid1.Coords, EltTy.bits .f32 = 32 ∨ (Rect.block (s := S512x5x100) S128x5x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x100.size a ≤ S512x100.size a
  hwx1_2 : ∀ i : grid1.Coords, EltTy.bits .f32 = 32 ∨ (Rect.block (s := S512x100) S128x100.size (cc1_transform_2 i) (hinb1_2 i)).WholeWords (EltTy.packing .f32)

variable [Facts₀]

def dot_S512x1024_S1024x500_S512x500_1_0_0_1_n_n : DotDims S512x1024 S1024x500 S512x500 where
  lhsContracting := [1]
  rhsContracting := [0]
  lhsNonContracting := [0]
  rhsNonContracting := [1]
  lhsBatch := []
  rhsBatch := []
  wf := dot_S512x1024_S1024x500_S512x500_1_0_0_1_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x500.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x5x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x5x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x1024 : Shape := ⟨2, ![512, 1024]⟩
abbrev S1024x500 : Shape := ⟨2, ![1024, 500]⟩
abbrev S512x500 : Shape := ⟨2, ![512, 500]⟩
abbrev S512x100x5 : Shape := ⟨3, ![512, 100, 5]⟩
abbrev S512x100x5x1 : Shape := ⟨4, ![512, 100, 5, 1]⟩
abbrev S100x5x512 : Shape := ⟨3, ![100, 5, 512]⟩
abbrev S1x100x5x512 : Shape := ⟨4, ![1, 100, 5, 512]⟩
abbrev S512x100x5x512 : Shape := ⟨4, ![512, 100, 5, 512]⟩
abbrev S_ : Shape := ⟨0, ![]⟩
abbrev S512x100x512 : Shape := ⟨3, ![512, 100, 512]⟩
abbrev S512x100 : Shape := ⟨2, ![512, 100]⟩

abbrev nBuf : Space → Nat
  | .hbm => 17
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x500, .f32⟩
  | .hbm, ⟨2, _⟩ => ⟨S512x500, .f32⟩
  | .hbm, ⟨3, _⟩ => ⟨S512x100x5, .f32⟩
  | .hbm, ⟨4, _⟩ => ⟨S512x100x5x1, .f32⟩
  | .hbm, ⟨5, _⟩ => ⟨S100x5x512, .f32⟩
  | .hbm, ⟨6, _⟩ => ⟨S1x100x5x512, .f32⟩
  | .hbm, ⟨7, _⟩ => ⟨S512x100x5x512, .f32⟩
  | .hbm, ⟨8, _⟩ => ⟨S512x100x5x512, .f32⟩
  | .hbm, ⟨9, _⟩ => ⟨S512x100x5x512, .f32⟩
  | .hbm, ⟨10, _⟩ => ⟨S512x100x5x512, .f32⟩
  | .hbm, ⟨11, _⟩ => ⟨S_, .f32⟩
  | .hbm, ⟨12, _⟩ => ⟨S512x100x512, .f32⟩
  | .hbm, ⟨13, _⟩ => ⟨S512x100x512, .f32⟩
  | .hbm, ⟨14, _⟩ => ⟨S512x100x512, .f32⟩
  | .hbm, ⟨15, _⟩ => ⟨S_, .f32⟩
  | .hbm, ⟨16, _⟩ => ⟨S512x100, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S512x500_S512x100x5 : S512x500.ShapeCasts S512x100x5
  bcast_S512x100x5_S512x100x5x1_0_1_2 : S512x100x5.BroadcastsInDim S512x100x5x1 (![0, 1, 2] : Fin 3 → Fin S512x100x5x1.rank)
  transposes_S512x100x5_S100x5x512_1_2_0 : S512x100x5.Transposes [1, 2, 0] S100x5x512
  bcast_S100x5x512_S1x100x5x512_1_2_3 : S100x5x512.BroadcastsInDim S1x100x5x512 (![1, 2, 3] : Fin 3 → Fin S1x100x5x512.rank)
  bcast_S512x100x5x1_S512x100x5x512_0_1_2_3 : S512x100x5x1.BroadcastsInDim S512x100x5x512 (![0, 1, 2, 3] : Fin 4 → Fin S512x100x5x512.rank)
  bcast_S1x100x5x512_S512x100x5x512_0_1_2_3 : S1x100x5x512.BroadcastsInDim S512x100x5x512 (![0, 1, 2, 3] : Fin 4 → Fin S512x100x5x512.rank)
  reducesTo_S512x100x5x512_S512x100x512_d2 : S512x100x5x512.ReducesTo [2] S512x100x512
  h_S_ : 0 < S_.numel
  reducesTo_S512x100x512_S512x100_d2 : S512x100x512.ReducesTo [2] S512x100
  dot_S512x1024_S1024x500_S512x500_1_0_0_1_n_n_wf : DotDims.WF S512x1024 S1024x500 S512x500 [1] [0] [0] [1] [] []

variable [Facts₀]

def dot_S512x1024_S1024x500_S512x500_1_0_0_1_n_n : DotDims S512x1024 S1024x500 S512x500 where
  lhsContracting := [1]
  rhsContracting := [0]
  lhsNonContracting := [0]
  rhsNonContracting := [1]
  lhsBatch := []
  rhsBatch := []
  wf := dot_S512x1024_S1024x500_S512x500_1_0_0_1_n_n_wf

class Facts : Prop extends Facts₀ where

variable [Facts]
-- ==== Proof.K.Reg0.lean ====
/-
  Region 0 of the kernel program: the projection matmul as ONE grid point. Both operands are staged whole, the body
  loads them, multiplies them on the matrix unit into a zero accumulator and stores the product over the whole output
  block. This module states what the body leaves in the output block as a function of the two operand blocks, proves
  the body's triple, and packages the pipeline's proof data and body obligation at any entry contents `V`.
-/
import proofs.«162111_j16552803959337_1_alg».proof.Proof.Gen.Kernel.Launch
import proofs.«162111_j16552803959337_1_alg».proof.Proof.Gen.Kernel.Skeleton
import proofs.«162111_j16552803959337_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rA0 : Rect S512x1024 := Rect.unit (s := S512x1024) ![0, 0] S512x1024.size inb_S512x1024_S512x1024_0_0
abbrev rB0 : Rect S1024x500 := Rect.unit (s := S1024x500) ![0, 0] S1024x500.size inb_S1024x500_S1024x500_0_0
abbrev rC0 : Rect S512x500 := Rect.unit (s := S512x500) ![0, 0] S512x500.size inb_S512x500_S512x500_0_0

/-- What the body leaves in the output block: the one store's payload over the two loaded blocks. -/
def out0_2 (x0 : Vec F S512x1024 .f32) (x1 : Vec F S1024x500 .f32) : Vec F S512x500 .f32 :=
  View.canon [⟨rC0, k0_pay1 (View.ld x0 rA0) (View.ld x1 rB0)⟩]

theorem cover0_2 (p0 : Vec F S512x500 .f32) (y : S512x500.Idx) :
    ∃ pc ∈ ([⟨rC0, p0⟩] : List (View.Piece (Elt F) S512x500 .f32)), y ∈ pc.1.set :=
  View.cover_of_tiled [⟨rC0, p0⟩] S512x500.size (by rfl) y

/-- The offsets of every rectangle of this body, the pair of zeros, are the constant zero. -/
theorem offs0_zero : (![0, 0] : Fin 2 → Nat) = fun _ => 0 := funext fun a => by fin_cases a <;> rfl

/-- The store covers the whole block from offset zero, so the block IS the payload of the whole operand blocks. -/
theorem out0_2_eq (x0 : Vec F S512x1024 .f32) (x1 : Vec F S1024x500 .f32) : out0_2 x0 x1 = k0_pay1 x0 x1 := by
  unfold out0_2
  -- one store through the whole-shape rectangle at zero offsets leaves its payload;
  rw [View.canon_unit_zero offs0_zero]
  -- a load through the whole-shape rectangle at zero offsets reads the contents.
  simp only [View.ld_unit_zero (S := S512x1024) offs0_zero, View.ld_unit_zero (S := S1024x500) offs0_zero]

set_option maxHeartbeats 1000000 in
theorem sound_kernel0 (c : Dev nD) (E : Set ℕ) (i : grid0.Coords) (arg1 : Memref sig .tc .vmem S512x1024 .f32) (harg1 : arg1.IsWhole)
    (arg2 : Memref sig .tc .vmem S1024x500 .f32) (harg2 : arg2.IsWhole) (arg3 : Memref sig .tc .vmem S512x500 .f32) (harg3 : arg3.IsWhole)
    (x0 : Vec F S512x1024 .f32) (x1 : Vec F S1024x500 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  -- the printed function is its skeleton of memory operations over the payload;
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  -- the two operand loads, the unused load of the output block and the one store run; then the return.
  sl_exec
  sl_step
  iapply Hk
  -- the operand blocks are untouched;
  isplitl [H0]
  · iexists f0; isplitr; · ipureintro; rfl
    iexact H0
  isplitl [H1]
  · iexists f1; isplitr; · ipureintro; rfl
    iexact H1
  -- the output block, written by one store that covers it, reads as the canon of that store.
  iexists _; isplitr
  swap; · iexact H2
  ipureintro
  exact View.read_writes_eq_canon _ _ _ (cover0_2 _)

/-- The proof data of pipeline 0 on core `c` at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`: the invariant, what the core owes, and every window's current
    buffer at what it then holds, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, and every window's current buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two operand buffers hold their blocks and the output buffer holds anything, so the
    body's triple applies; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
/-
  Region 1's kernel body, run once per control case. The body branches twice on the grid's second coordinate j: a reset of
  the scratch where j = 0, and the copy of the scratch into the output block where j = 3. On a 4 x 4 grid this gives
  three cases: A (j = 0: reset, then add), B (j = 1, 2: add) and C (j = 3: add, then copy out). Each run is stated over
  any whole staging memrefs, with the scratch's contents after the run given by the pure function `upd`.
-/
import proofs.«162111_j16552803959337_1_alg».proof.Proof.Gen.Kernel.Launch
import proofs.«162111_j16552803959337_1_alg».proof.Proof.Gen.Kernel.Skeleton
import proofs.«162111_j16552803959337_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The reset's condition (j = 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The copy-out's condition (j = 3), from the grid coordinates. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## One point's update of the running sum -/

/-- From the row tile `x0`, the other-batch tile `x1` and the sum so far `acc`, the sum with this tile's contribution
    added: the body's one scratch store, as a pure function of what it loaded. -/
def upd (x0 x1 : Vec F S128x5x100 .f32) (acc : Vec F S128x100 .f32) : Vec F S128x100 .f32 :=
  k1_pay1 (k1_pay3 x0) (k1_pay4 x1) (k1_pay5 x0 x1) (k1_pay6 x1) (k1_pay7 x0) acc

/-! ## Zero offsets, however they are spelt -/

theorem run1_hz2 : (![0, 0] : Fin S128x100.rank → ℕ) = fun _ => 0 := by funext a; fin_cases a <;> rfl
theorem run1_hz3 : (![0, 0, 0] : Fin S128x5x100.rank → ℕ) = fun _ => 0 := by funext a; fin_cases a <;> rfl

/-- One store through the whole-shape rectangle covers every index. -/
theorem run1_cover (inb : ∀ a, (![0, 0] : Fin S128x100.rank → ℕ) a + S128x100.size a ≤ S128x100.size a) (p : Vec F S128x100 .f32)
    (L : List (View.Piece (Elt F) S128x100 .f32)) (y : S128x100.Idx) :
    ∃ pc ∈ ((⟨Rect.unit ![0, 0] S128x100.size inb, p⟩ : View.Piece (Elt F) S128x100 .f32) :: L), y ∈ pc.1.set :=
  ⟨_, List.mem_cons_self, View.mem_set_unit_zero run1_hz2 inb y⟩

/-! ## The runs -/

set_option maxHeartbeats 1000000 in
/-- Case A (j = 0): the scratch, at anything, is reset to zeros and then holds this tile's contribution over zeros; the
    output block is not touched. -/
theorem run1_A (c : Dev nD) (i : grid1.Coords) (arg2 : Memref sig .tc .vmem S128x5x100 .f32) (harg2 : arg2.IsWhole)
    (arg3 : Memref sig .tc .vmem S128x5x100 .f32) (harg3 : arg3.IsWhole) (arg4 : Memref sig .tc .vmem S128x100 .f32) (harg4 : arg4.IsWhole)
    (arg5 : Memref sig .tc .vmem S128x100 .f32) (harg5 : arg5.IsWhole) (hc0 : cond1_0 i) (hc1 : ¬cond1_1 i)
    (x0 x1 : Vec F S128x5x100 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (upd x0 x1 (k1_pay2 (F := F)))) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton]
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  -- the body, statement by statement; each branch decided by the case's hypotheses
  sl_exec (disch := first | exact hc0 | exact hc1)
  sl_step
  iapply Hk
  -- the two input blocks are handed back as they were
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  -- the scratch after the reset and the update: the later whole-block store decides every index, and the sum so far
  -- it read is what the reset left, the zeros
  sl_unfold_words
  rw [View.read_writes_eq_canon _ _ _ (run1_cover _ _ _), View.canon_cons_unit_zero (S := S128x100) run1_hz2]
  simp only [View.readCov_unit_zero (S := S128x100) _ run1_hz2, View.readAt_eq_ld, harg2.read_unread, harg3.read_unread, harg5.read_unread, View.ld_unit_zero (S := S128x5x100) run1_hz3, View.ld_unit_zero (S := S128x100) run1_hz2]
  rfl

set_option maxHeartbeats 1000000 in
/-- Case B (j = 1, 2): the scratch goes from `acc` to `upd x0 x1 acc`; the output block is not touched. -/
theorem run1_B (c : Dev nD) (i : grid1.Coords) (arg2 : Memref sig .tc .vmem S128x5x100 .f32) (harg2 : arg2.IsWhole)
    (arg3 : Memref sig .tc .vmem S128x5x100 .f32) (harg3 : arg3.IsWhole) (arg4 : Memref sig .tc .vmem S128x100 .f32) (harg4 : arg4.IsWhole)
    (arg5 : Memref sig .tc .vmem S128x100 .f32) (harg5 : arg5.IsWhole) (hc0 : ¬cond1_0 i) (hc1 : ¬cond1_1 i)
    (x0 x1 : Vec F S128x5x100 .f32) (acc : Vec F S128x100 .f32) (E : Set ℕ) (K : PUnit → sProp 𝕄) :
    iprop(owns (c : Thread nD τ) arg2 fullShare x0 ∗ owns (c : Thread nD τ) arg3 fullShare x1 ∗ owns (c : Thread nD τ) arg5 fullShare acc
        ∗ (iprop(owns (c : Thread nD τ) arg2 fullShare x0 ∗ owns (c : Thread nD τ) arg3 fullShare x1
            ∗ owns (c : Thread nD τ) arg5 fullShare (upd x0 x1 acc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton]
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg5.eq_unread hfs0
  -- the body, statement by statement; each branch decided by the case's hypotheses
  sl_exec (disch := first | exact hc0 | exact hc1)
  sl_step
  iapply Hk
  -- the two input blocks are handed back as they were
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  -- the scratch after its one whole-block store is the stored value, over the blocks as loaded
  rw [View.read_writes_eq_canon _ _ _ (run1_cover _ _ _)]
  sl_unfold_words
  rw [View.canon_unit_zero run1_hz2]
  simp only [View.readAt_eq_ld, harg2.read_unread, harg3.read_unread, harg5.read_unread, View.ld_unit_zero (S := S128x5x100) run1_hz3, View.ld_unit_zero (S := S128x100) run1_hz2]
  rfl

set_option maxHeartbeats 1000000 in
/-- Case C (j = 3): the scratch goes from `acc` to `upd x0 x1 acc`, and the output block, at anything, ends holding the same. -/
theorem run1_C (c : Dev nD) (i : grid1.Coords) (arg2 : Memref sig .tc .vmem S128x5x100 .f32) (harg2 : arg2.IsWhole)
    (arg3 : Memref sig .tc .vmem S128x5x100 .f32) (harg3 : arg3.IsWhole) (arg4 : Memref sig .tc .vmem S128x100 .f32) (harg4 : arg4.IsWhole)
    (arg5 : Memref sig .tc .vmem S128x100 .f32) (harg5 : arg5.IsWhole) (hc0 : ¬cond1_0 i) (hc1 : cond1_1 i)
    (x0 x1 : Vec F S128x5x100 .f32) (acc : Vec F S128x100 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare acc
        ∗ (iprop(owns (c : Thread nD τ) arg2 fullShare x0 ∗ owns (c : Thread nD τ) arg3 fullShare x1
            ∗ owns (c : Thread nD τ) arg4 fullShare (upd x0 x1 acc) ∗ owns (c : Thread nD τ) arg5 fullShare (upd x0 x1 acc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton]
  unfold owns
  iintro ⟨⟨%f0, %hf0, H0⟩, ⟨%f1, %hf1, H1⟩, ⟨%d4, %f4, -, H4⟩, ⟨%fs0, %hfs0, HS0⟩, Hk⟩
  obtain rfl := harg2.eq_unread hf0; obtain rfl := harg3.eq_unread hf1; obtain rfl := harg5.eq_unread hfs0
  -- the body, statement by statement; each branch decided by the case's hypotheses
  sl_exec (disch := first | exact hc0 | exact hc1)
  sl_step
  iapply Hk
  -- the two input blocks are handed back as they were
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    -- the output block after its one whole-block store holds what was loaded from the scratch just stored
    sl_unfold_words
    rw [View.read_writes_eq_canon _ _ _ (run1_cover _ _ _), View.canon_unit_zero run1_hz2]
    simp only [View.readCov_unit_zero (S := S128x100) _ run1_hz2, View.readAt_eq_ld, harg2.read_unread, harg3.read_unread, harg5.read_unread, View.ld_unit_zero (S := S128x5x100) run1_hz3, View.ld_unit_zero (S := S128x100) run1_hz2]
    rfl
  iexists _; isplitr
  swap; · iexact HS0
  ipureintro
  -- the scratch after its one whole-block store is the stored value, over the blocks as loaded
  sl_unfold_words
  rw [View.read_writes_eq_canon _ _ _ (run1_cover _ _ _), View.canon_unit_zero run1_hz2]
  simp only [View.readCov_unit_zero (S := S128x100) _ run1_hz2, View.readAt_eq_ld, harg2.read_unread, harg3.read_unread, harg5.read_unread, View.ld_unit_zero (S := S128x5x100) run1_hz3, View.ld_unit_zero (S := S128x100) run1_hz2]
  rfl

end Cert.Kernel.Hand

end
-- ==== Proof.K.Reg1.lean ====
/-
  Region 1 of the kernel program: the pairwise L1 / exp / sum stage on the 4 x 4 grid of (row tile i, other-batch tile j).
  One array (the projected features, laid out [B, D, K]) is handed to the kernel through TWO windows: window 0 reads
  the row tile i, window 1 the other-batch tile j. A VMEM scratch carries the running sum over j: it is reset where
  j = 0, added to at every point, and copied into the output block where j = 3 (the only points that write back).
  This module names what the scratch holds after each point as a recursion over the points, and packages the
  pipeline's proof data and the body obligation at any entry contents `V`.
-/
import proofs.«162111_j16552803959337_1_alg».proof.Proof.K.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: what the scratch holds after the body at position `n`. Where j = 0 (n ≡ 0 mod 4) the body first
    resets it to zeros, so the point's contribution is added to zeros; elsewhere to what the point before left. -/
def scAt (c : Dev nD) : (n : ℕ) → n < cfg1.N → Vec F S128x100 .f32
  | 0, hn => upd (iblk1 V c 0 ⟨0, hn⟩) (iblk1 V c 1 ⟨0, hn⟩) (k1_pay2 (F := F))
  | n + 1, hn =>
    if (n + 1) % 4 = 0 then upd (iblk1 V c 0 ⟨n + 1, hn⟩) (iblk1 V c 1 ⟨n + 1, hn⟩) (k1_pay2 (F := F))
    else upd (iblk1 V c 0 ⟨n + 1, hn⟩) (iblk1 V c 1 ⟨n + 1, hn⟩) (scAt c n (Nat.lt_of_succ_lt hn))

theorem scAt_reset (c : Dev nD) (t : Fin cfg1.N) (h : t.val % 4 = 0) :
    scAt V c t.val t.isLt = upd (iblk1 V c 0 t) (iblk1 V c 1 t) (k1_pay2 (F := F)) := by
  obtain ⟨n, hn⟩ := t
  cases n with
  | zero => rfl
  | succ n => exact if_pos h

theorem scAt_acc (c : Dev nD) (t : Fin cfg1.N) (h : ¬ t.val % 4 = 0) :
    scAt V c t.val t.isLt = upd (iblk1 V c 0 t) (iblk1 V c 1 t) (scAt V c (t.val - 1) (Nat.lt_of_le_of_lt (Nat.sub_le _ _) t.isLt)) := by
  obtain ⟨n, hn⟩ := t
  cases n with
  | zero => exact absurd (Nat.zero_mod _) h
  | succ n => exact if_neg h

/-- The scratch buffer as the kernel is handed it. -/
abbrev scM : Memref sig .tc .vmem S128x100 .f32 := Memref.whole cc1_scratch0

/-- What rides beside the carried scratch in the invariant after the first point: the other scoped buffers no window of this
    region stages (region 0's staging buffers), each at anything, and the generator register at some state. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ r, prngReg c r))

/-- The region invariant before position `n`: before the first point the class's (every scratch at anything); afterwards
    the carried scratch at what the point before left in it (`scAt`), the rest at anything. -/
def PhiS (c : Dev nD) : (n : ℕ) → n ≤ cfg1.N → sProp 𝕄
  | 0, _ => Pipeline.ΦA spec1 c
  | n + 1, hn => iprop(owns (c : Thread nD τ) scM fullShare (scAt V c n hn) ∗ rest1 (F := F) c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(owns (c : Thread nD τ) scM fullShare (scAt V c n hn) ∗ rest1 (F := F) c) := rfl

/-- Before a point that is not the first: the carried scratch at what the point before left. -/
theorem PhiS_pos (c : Dev nD) (n : ℕ) (h : n ≤ cfg1.N) (hz : n ≠ 0) :
    PhiS V c n h = iprop(owns (c : Thread nD τ) scM fullShare (scAt V c (n - 1) (by omega)) ∗ rest1 (F := F) c) := by
  cases n with
  | zero => exact absurd rfl hz
  | succ n => rfl

/-- The last of four conjuncts moved in front of the others and of a fifth beside them: `∗` is associative and
    commutative. -/
theorem sep_last_to_front (A B C S G : sProp 𝕄) : iprop((A ∗ B ∗ C ∗ S) ∗ G) = iprop(S ∗ A ∗ B ∗ C ∗ G) := by
  have h₁ : iprop((A ∗ B ∗ C ∗ S) ∗ G) ⊢ iprop(S ∗ A ∗ B ∗ C ∗ G) := by
    iintro ⟨⟨Ha, Hb, Hc, Hs⟩, Hg⟩
    isplitl [Hs]; · iexact Hs
    isplitl [Ha]; · iexact Ha
    isplitl [Hb]; · iexact Hb
    isplitl [Hc]; · iexact Hc
    iexact Hg
  have h₂ : iprop(S ∗ A ∗ B ∗ C ∗ G) ⊢ iprop((A ∗ B ∗ C ∗ S) ∗ G) := by
    iintro ⟨Hs, Ha, Hb, Hc, Hg⟩
    isplitr [Hg]
    · isplitl [Ha]; · iexact Ha
      isplitl [Hb]; · iexact Hb
      isplitl [Hc]; · iexact Hc
      iexact Hs
    iexact Hg
  exact BI.equiv_iff.mp ⟨h₁, h₂⟩

/-- The class's invariant with the carried scratch set apart as a memref owned at some contents: the scoped rest is the
    four buffers one by one, the scratch last; moving it to the front is associativity and commutativity of `∗`. -/
theorem PhiA1_eq (c : Dev nD) :
    (Pipeline.ΦA spec1 c : sProp 𝕄) = iprop((∃ d, owns (c : Thread nD τ) scM fullShare d) ∗ rest1 (F := F) c) := by
  unfold Pipeline.ΦA rest1; rw [scopedRest1_eq]; simp only [scM, owns_whole]
  exact sep_last_to_front (F := F) _ _ _ _ _

/-- The proof data of pipeline 1 on core `c` at entry contents `V`: the two input windows on the one array hold it at the two
    halves of the full share; after the body each input's buffer is at its block, and the output's at the running sum (read
    only at the points that write it back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scAt V c t.val t.isLt
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scAt V c t.val t.isLt := by dsimp only [dat1]

/-- Each input's current staging buffer holds its block at every point, fetched there or not: unfetched, the block
    index has not moved, and the body leaves the block in place. Both windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- Each window's current staging memref at point `t`, as the pipeline passes it to the body, and its wholeness. -/
abbrev ms1_0 (t : Fin cfg1.N) : Memref sig .tc .vmem S128x5x100 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x5x100 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x100 .f32 := win1_2.stage (cfg1.slots t 2)
abbrev hs1_2 (t : Fin cfg1.N) : (ms1_2 t).IsWhole := hstage1_2 ((cfg1.slots t 2).cast nbuf1_2)

/-- What the body is called with at point `t`: the invariant, what the core owes, and the three windows' current buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks. Where j = 0 the scratch, at whatever the invariant has
    it (anything before the first point; what the point before left afterwards), is reset and then holds this point's
    contribution over zeros; elsewhere it goes from what the point before left to that with this point's contribution
    added. The output's buffer is handed back as found except where j = 3, where it ends at the scratch's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val % 4 = 0
  · -- j = 0: reset, then add
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [scAt_reset V c t h0]
    have hpre : (dat1 V c).Φ t.castSucc ⊢ iprop((∃ d, owns (c : Thread nD τ) scM fullShare d) ∗ rest1 (F := F) c) := by
      rw [PhiS_castSucc V c t]
      by_cases hz : t.val = 0
      · rw [PhiS_zero V c _ _ hz, PhiA1_eq]
      · rw [PhiS_pos V c _ _ hz]
        iintro ⟨HS, HR⟩
        isplitl [HS]; · iexists _; iexact HS
        iexact HR
    refine (sep_mono hpre .rfl).trans ?_
    iintro ⟨⟨HS, HR⟩, Ho, ⟨%d0, H0⟩, ⟨%d1, H1⟩, ⟨%d2, H2⟩⟩
    iapply (run1_A c (grid1.coords t) _ _ _ _ _ _ _ _ hc0 hc1 (iblk1 V c 0 t) (iblk1 V c 1 t) Set.univ _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    iexists _; iexact H2
  · have hz : t.val ≠ 0 := fun e => h0 (by rw [e])
    have hc0 : ¬cond1_0 (grid1.coords t) := fun h => h0 ((hcond1_0 t).mp h)
    rw [scAt_acc V c t h0]
    rw [PhiS_castSucc V c t, PhiS_pos V c _ _ hz]
    by_cases h1 : t.val % 4 = 3
    · -- j = 3: add, then copy out
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, scAt_acc V c t h0]
      iintro ⟨⟨HS, HR⟩, Ho, ⟨%d0, H0⟩, ⟨%d1, H1⟩, ⟨%d2, H2⟩⟩
      iapply (run1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · -- j = 1, 2: add
      have hc1 : ¬cond1_1 (grid1.coords t) := fun h => h1 ((hcond1_1 t).mp h)
      rw [Dat.leavesExact_idle (dat1 V c) 2 t (idleAt1_2 t hc1) (noFlush1_2 t hc1)]
      iintro ⟨⟨HS, HR⟩, Ho, ⟨%d0, H0⟩, ⟨%d1, H1⟩, ⟨%d2, H2⟩⟩
      iapply (run1_B c (grid1.coords t) _ _ _ _ _ _ _ _ hc0 hc1 (iblk1 V c 0 t) (iblk1 V c 1 t) _ Set.univ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the carried scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨HS, HR⟩
  isplitl [HS]; · iexists _; iexact HS
  iexact HR

end Cert.Kernel.Hand

end
-- ==== Proof.K.Share1.lean ====
/-
  Region 1 reads ONE array (the projected features) through two input windows. At the region's entry the array's
  buffer, held whole, is dealt to the two windows at the two halves of the full share; at its exit the halves are put
  together again. The output window's array is held outright both ways.
-/
import proofs.«162111_j16552803959337_1_alg».proof.Proof.K.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's windows are two: the shared input array and the output's array. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v2) ↦{fullShare} X main_v2) ∗ (((c : Thread nD τ).loc main_v3) ↦{fullShare} X main_v3)) := by
  unfold Pipeline.arrBufs
  exact bigSep_eq_bigSepL_of_eq [main_v2, main_v3] (by decide) (by decide) _

/-- The share each window's array is held at: the two inputs the two halves of the full share, the output the full share. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

/-- A window's array is a whole buffer: holding its view's elements is holding every element of the buffer behind it. -/
theorem win1_pt (c : Dev nD) (w : Fin cfg1.W) (q : PosShare TreeShare) (X : Buf (Elt F) ((cfg1.win w).arr.view.loc (c : Thread nD τ))) :
    (((cfg1.win w).arr.view.loc (c : Thread nD τ)) ↦[(cfg1.win w).arr.view.set]{q} X : sProp 𝕄)
      = (((c : Thread nD τ).loc (Pipeline.arrRef spec1 w)) ↦{q} X) := by
  rw [(arr_whole1 w).set_eq_univ]

/-- ENTRY: the distinct buffers behind region 1's windows, whole at the entry contents, are the proof data's arrays at entry:
    the shared array split between windows 0 and 1 along the share, the output's array outright. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq]
  unfold Dat.arrays
  rw [bigSep_W1, win1_pt, win1_pt, win1_pt, share1_0, share1_1, share1_2]
  -- windows 0 and 1 sit on the one array, at its entry contents; the full share is its left half composed with its right half
  refine (show iprop((((c : Thread nD τ).loc main_v2) ↦{fullShare} V c main_v2) ∗ (((c : Thread nD τ).loc main_v3) ↦{fullShare} V c main_v3))
    ⊢ (iprop((((c : Thread nD τ).loc main_v2) ↦{fullShare.left} V c main_v2) ∗ (((c : Thread nD τ).loc main_v2) ↦{fullShare.right} V c main_v2)
        ∗ (((c : Thread nD τ).loc main_v3) ↦{fullShare} V c main_v3)) : sProp 𝕄) from ?_)
  iintro ⟨H2, H3⟩
  ihave H := (pointsTo_share (PosShare.mem_left_op_right fullShare)).1 $$ H2
  icases H with ⟨Hl, Hr⟩
  isplitl [Hl]; · iexact Hl
  isplitl [Hr]; · iexact Hr
  iexact H3

/-- EXIT: the proof data's arrays at their final contents are the distinct buffers behind the windows, whole, at any contents
    `V'` that has the shared input array as entered and the output's array at what the write-backs left. -/
theorem hjoin1 (c : Dev nD) (V' : (b : Ref sig .tc) → Buf (Elt F) ((c : Thread nD τ).loc b))
    (h2 : V' main_v2 = V c main_v2) (h3 : V' main_v3 = (dat1 V c).arrAt 2 cfg1.N) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, h2, h3]
  unfold Dat.arrays
  rw [bigSep_W1, win1_pt, win1_pt, win1_pt, share1_0, share1_1, share1_2]
  dsimp only
  -- an input window's array is never written: at the exit both inputs hold the shared array as entered
  rw [(dat1 V c).arrAt_in 0 rfl, (dat1 V c).arrAt_in 1 rfl]
  refine (show (iprop((((c : Thread nD τ).loc main_v2) ↦{fullShare.left} V c main_v2) ∗ (((c : Thread nD τ).loc main_v2) ↦{fullShare.right} V c main_v2)
        ∗ (((c : Thread nD τ).loc main_v3) ↦{fullShare} (dat1 V c).arrAt 2 cfg1.N)) : sProp 𝕄)
      ⊢ iprop((((c : Thread nD τ).loc main_v2) ↦{fullShare} V c main_v2) ∗ (((c : Thread nD τ).loc main_v3) ↦{fullShare} (dat1 V c).arrAt 2 cfg1.N)) from ?_)
  iintro ⟨Hl, Hr, H3⟩
  isplitr [H3]
  · -- the two halves, at the same contents, compose to the full share
    iapply (pointsTo_share (PosShare.mem_left_op_right fullShare)).2
    isplitl [Hl]; · iexact Hl
    iexact Hr
  · iexact H3

end Cert.Kernel.Hand

end
-- ==== Proof.K.Run.lean ====
/-
  The kernel program's run as a whole: @main is region 0 (the projection), a host stretch (a reshape and a transpose that
  lay the projected features out as [B, D, K]), and region 1 (the pairwise stage). The buffer contents at each boundary are a
  fold from the launch memory: a region leaves its output array at what its write-backs leave and everything else as
  entered; the host stretch is the composition of its two operations. Every weakly fair execution terminates with every
  unscoped buffer at the last boundary's contents; the argument arrays read back to the launch memory, and the result
  array to region 1's output.
-/
import proofs.«162111_j16552803959337_1_alg».proof.Proof.K.Reg0
import proofs.«162111_j16552803959337_1_alg».proof.Proof.K.Reg1
import proofs.«162111_j16552803959337_1_alg».proof.Proof.K.Share1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: @main begins with it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: the product array at what the one write-back leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit: the result array at what the write-backs leave, every other buffer as entered. -/
def W3 (c : Dev nD) : Valuation τ sig (Elt F) :=
  Function.update (W2 m ρ c) (Proc.devRef .tc main_v3) ((dat1 (V2 m ρ) c).arrAt 2 cfg1.N)
theorem W3_v3 (c : Dev nD) : W3 m ρ c (Proc.devRef .tc main_v3) = (dat1 (V2 m ρ) c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-! ## The arguments end as launched

No host operation writes an argument and no region may change one: region 0 reads both through input windows, the host
stretch writes only the two layout buffers, region 1 bypasses them. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0: entered from every unscoped buffer at launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's arrays the exit contents are the entry contents. -/
theorem unscopedRest1_exit (c : Dev nD) :
    (Pipeline.unscopedRest (Ix := Unit) (Name := ℕ) (U := UR sig nD τ) (Lvl := ℕ) spec1 c (V2 m ρ c) : sProp 𝕄)
      = Pipeline.unscopedRest spec1 c (V3 m ρ c) := by
  unfold Pipeline.unscopedRest
  refine BI.bigSep_congr fun b hb => ?_
  rw [show V3 m ρ c b = V2 m ρ c b from W3_of_ne m ρ c b fun e => (Finset.mem_sdiff.mp hb).2
    (Finset.mem_image.mpr ⟨2, Finset.mem_univ _, e ▸ rfl⟩)]

set_option backward.isDefEq.respectTransparency.types false in
/-- REGION 1: entered from every unscoped buffer at `W2`, left at `W3`. Its two input windows share one array: the array's
    buffer is dealt to them along the share at the entry and put together at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsE : (StableHlo.held (c : Thread nD τ) (Pipeline.ucRefs τ sig) (W2 m ρ c) : sProp 𝕄)
        ⊢ iprop(Pipeline.arrBufs spec1 c (V2 m ρ c) ∗ Pipeline.unscopedRest spec1 c (V2 m ρ c)) := by
      have hs := Pipeline.unscopedBufs_split₀ (Ix := Unit) (Name := ℕ) (U := UR sig nD τ) (Lvl := ℕ) (Pipeline.pin (pcfgs (F := F)) adm) 1 winFacts₀1.arr_unscoped c (V2 m ρ c)
      rw [Pipeline.unscopedBufs_held] at hs
      exact Entails.of_eq hs
    have hsp : (Pipeline.arrBufs (Ix := Unit) (Name := ℕ) (U := UR sig nD τ) (Lvl := ℕ) spec1 c (V2 m ρ c) : sProp 𝕄)
        ⊢ (pdats m ρ 1 c).arrays ((pdats m ρ 1 c).arrAt · 0) := hsplit1 (V2 m ρ) c
    iintro ⟨⟨Hub, Hp, HO⟩, -, -⟩
    ihave H := hsE $$ Hub
    icases H with ⟨Hb, Hrest⟩
    ihave Ha := hsp $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (pdats m ρ 1 c).Φ 0 = (dat1 (V2 m ρ) c).Φ 0 := rfl
    rw [h1]
    exact (show _ ⊢ (Pipeline.ΦA spec1 c : sProp 𝕄) from by
      unfold Pipeline.ΦA
      iintro ⟨Hp, -, Hr⟩
      isplitl [Hr]; · iexact Hr
      iexact Hp).trans (hin1 (V2 m ρ) c)
  hout c := by
    rw [Pipeline.ownSems0_none]
    have h1 : (pdats m ρ 1 c).Φ (Fin.last _) = (dat1 (V2 m ρ) c).Φ (Fin.last cfg1.N) := rfl
    rw [h1]
    exact (hout1 (V2 m ρ) c).trans (by
      unfold Pipeline.ΦA
      iintro ⟨Hr, Hp⟩
      isplitl [Hp]; · iexact Hp
      isplitr; · iempintro
      iexact Hr)
  hexit c := by
    have hsE : iprop(Pipeline.arrBufs spec1 c (V3 m ρ c) ∗ Pipeline.unscopedRest spec1 c (V2 m ρ c))
        ⊢ (StableHlo.held (c : Thread nD τ) (Pipeline.ucRefs τ sig) (W3 m ρ c) : sProp 𝕄) := by
      have hs := Pipeline.unscopedBufs_split₀ (Ix := Unit) (Name := ℕ) (U := UR sig nD τ) (Lvl := ℕ) (Pipeline.pin (pcfgs (F := F)) adm) 1 winFacts₀1.arr_unscoped c (V3 m ρ c)
      rw [Pipeline.unscopedBufs_held] at hs
      rw [unscopedRest1_exit m ρ c]
      exact Entails.of_eq hs.symm
    have hj : (pdats m ρ 1 c).arrays ((pdats m ρ 1 c).arrAt · (Pipeline.pin (pcfgs (F := F)) adm 1).N)
        ⊢ (Pipeline.arrBufs (Ix := Unit) (Name := ℕ) (U := UR sig nD τ) (Lvl := ℕ) spec1 c (V3 m ρ c) : sProp 𝕄) :=
      hjoin1 (V2 m ρ) c (V3 m ρ c) (W3_of_ne m ρ c main_v2 (by decide)) (W3_v3 m ρ c)
    iintro ⟨Ha, HO, HY, Hrest⟩
    ihave Hb := hj $$ Ha
    imodintro
    isplitl [Hb Hrest HY]
    · isplitl [Hb Hrest]
      · iapply hsE; isplitl [Hb] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    every final state has every unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_main m ρ)

end Cert.Kernel.Hand

end
-- ==== Proof.KI.Reg0.lean ====
/-
  Region 0 of the kernel program: the projection matmul as ONE grid point. Both operands are staged whole, the body
  loads them, multiplies them on the matrix unit into a zero accumulator and stores the product over the whole output
  block. This module states what the body leaves in the output block as a function of the two operand blocks, proves
  the body's triple, and packages the pipeline's proof data and body obligation at any entry contents `V`.
-/
import proofs.«162111_j16552803959337_1_alg».proof.Proof.Gen.KernelIdeal.Launch
import proofs.«162111_j16552803959337_1_alg».proof.Proof.Gen.KernelIdeal.Skeleton
import proofs.«162111_j16552803959337_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rA0 : Rect S512x1024 := Rect.unit (s := S512x1024) ![0, 0] S512x1024.size inb_S512x1024_S512x1024_0_0
abbrev rB0 : Rect S1024x500 := Rect.unit (s := S1024x500) ![0, 0] S1024x500.size inb_S1024x500_S1024x500_0_0
abbrev rC0 : Rect S512x500 := Rect.unit (s := S512x500) ![0, 0] S512x500.size inb_S512x500_S512x500_0_0

/-- What the body leaves in the output block: the one store's payload over the two loaded blocks. -/
def out0_2 (x0 : Vec F S512x1024 .f32) (x1 : Vec F S1024x500 .f32) : Vec F S512x500 .f32 :=
  View.canon [⟨rC0, k0_pay1 (View.ld x0 rA0) (View.ld x1 rB0)⟩]

theorem cover0_2 (p0 : Vec F S512x500 .f32) (y : S512x500.Idx) :
    ∃ pc ∈ ([⟨rC0, p0⟩] : List (View.Piece (Elt F) S512x500 .f32)), y ∈ pc.1.set :=
  View.cover_of_tiled [⟨rC0, p0⟩] S512x500.size (by rfl) y

/-- The offsets of every rectangle of this body, the pair of zeros, are the constant zero. -/
theorem offs0_zero : (![0, 0] : Fin 2 → Nat) = fun _ => 0 := funext fun a => by fin_cases a <;> rfl

/-- The store covers the whole block from offset zero, so the block IS the payload of the whole operand blocks. -/
theorem out0_2_eq (x0 : Vec F S512x1024 .f32) (x1 : Vec F S1024x500 .f32) : out0_2 x0 x1 = k0_pay1 x0 x1 := by
  unfold out0_2
  -- one store through the whole-shape rectangle at zero offsets leaves its payload;
  rw [View.canon_unit_zero offs0_zero]
  -- a load through the whole-shape rectangle at zero offsets reads the contents.
  simp only [View.ld_unit_zero (S := S512x1024) offs0_zero, View.ld_unit_zero (S := S1024x500) offs0_zero]

set_option maxHeartbeats 1000000 in
theorem sound_kernel0 (c : Dev nD) (E : Set ℕ) (i : grid0.Coords) (arg1 : Memref sig .tc .vmem S512x1024 .f32) (harg1 : arg1.IsWhole)
    (arg2 : Memref sig .tc .vmem S1024x500 .f32) (harg2 : arg2.IsWhole) (arg3 : Memref sig .tc .vmem S512x500 .f32) (harg3 : arg3.IsWhole)
    (x0 : Vec F S512x1024 .f32) (x1 : Vec F S1024x500 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  -- the printed function is its skeleton of memory operations over the payload;
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  -- the two operand loads, the unused load of the output block and the one store run; then the return.
  sl_exec
  sl_step
  iapply Hk
  -- the operand blocks are untouched;
  isplitl [H0]
  · iexists f0; isplitr; · ipureintro; rfl
    iexact H0
  isplitl [H1]
  · iexists f1; isplitr; · ipureintro; rfl
    iexact H1
  -- the output block, written by one store that covers it, reads as the canon of that store.
  iexists _; isplitr
  swap; · iexact H2
  ipureintro
  exact View.read_writes_eq_canon _ _ _ (cover0_2 _)

/-- The proof data of pipeline 0 on core `c` at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`: the invariant, what the core owes, and every window's current
    buffer at what it then holds, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, and every window's current buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two operand buffers hold their blocks and the output buffer holds anything, so the
    body's triple applies; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
/-
  Region 1's kernel body, run once per control case. The body branches twice on the grid's second coordinate j: a reset of
  the scratch where j = 0, and the copy of the scratch into the output block where j = 3. On a 4 x 4 grid this gives
  three cases: A (j = 0: reset, then add), B (j = 1, 2: add) and C (j = 3: add, then copy out). Each run is stated over
  any whole staging memrefs, with the scratch's contents after the run given by the pure function `upd`.
-/
import proofs.«162111_j16552803959337_1_alg».proof.Proof.Gen.KernelIdeal.Launch
import proofs.«162111_j16552803959337_1_alg».proof.Proof.Gen.KernelIdeal.Skeleton
import proofs.«162111_j16552803959337_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The reset's condition (j = 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The copy-out's condition (j = 3), from the grid coordinates. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## One point's update of the running sum -/

/-- From the row tile `x0`, the other-batch tile `x1` and the sum so far `acc`, the sum with this tile's contribution
    added: the body's one scratch store, as a pure function of what it loaded. -/
def upd (x0 x1 : Vec F S128x5x100 .f32) (acc : Vec F S128x100 .f32) : Vec F S128x100 .f32 :=
  k1_pay1 (k1_pay3 x0) (k1_pay4 x1) (k1_pay5 x0 x1) (k1_pay6 x1) (k1_pay7 x0) acc

/-! ## Zero offsets, however they are spelt -/

theorem run1_hz2 : (![0, 0] : Fin S128x100.rank → ℕ) = fun _ => 0 := by funext a; fin_cases a <;> rfl
theorem run1_hz3 : (![0, 0, 0] : Fin S128x5x100.rank → ℕ) = fun _ => 0 := by funext a; fin_cases a <;> rfl

/-- One store through the whole-shape rectangle covers every index. -/
theorem run1_cover (inb : ∀ a, (![0, 0] : Fin S128x100.rank → ℕ) a + S128x100.size a ≤ S128x100.size a) (p : Vec F S128x100 .f32)
    (L : List (View.Piece (Elt F) S128x100 .f32)) (y : S128x100.Idx) :
    ∃ pc ∈ ((⟨Rect.unit ![0, 0] S128x100.size inb, p⟩ : View.Piece (Elt F) S128x100 .f32) :: L), y ∈ pc.1.set :=
  ⟨_, List.mem_cons_self, View.mem_set_unit_zero run1_hz2 inb y⟩

/-! ## The runs -/

set_option maxHeartbeats 1000000 in
/-- Case A (j = 0): the scratch, at anything, is reset to zeros and then holds this tile's contribution over zeros; the
    output block is not touched. -/
theorem run1_A (c : Dev nD) (i : grid1.Coords) (arg2 : Memref sig .tc .vmem S128x5x100 .f32) (harg2 : arg2.IsWhole)
    (arg3 : Memref sig .tc .vmem S128x5x100 .f32) (harg3 : arg3.IsWhole) (arg4 : Memref sig .tc .vmem S128x100 .f32) (harg4 : arg4.IsWhole)
    (arg5 : Memref sig .tc .vmem S128x100 .f32) (harg5 : arg5.IsWhole) (hc0 : cond1_0 i) (hc1 : ¬cond1_1 i)
    (x0 x1 : Vec F S128x5x100 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (upd x0 x1 (k1_pay2 (F := F)))) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton]
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  -- the body, statement by statement; each branch decided by the case's hypotheses
  sl_exec (disch := first | exact hc0 | exact hc1)
  sl_step
  iapply Hk
  -- the two input blocks are handed back as they were
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  -- the scratch after the reset and the update: the later whole-block store decides every index, and the sum so far
  -- it read is what the reset left, the zeros
  sl_unfold_words
  rw [View.read_writes_eq_canon _ _ _ (run1_cover _ _ _), View.canon_cons_unit_zero (S := S128x100) run1_hz2]
  simp only [View.readCov_unit_zero (S := S128x100) _ run1_hz2, View.readAt_eq_ld, harg2.read_unread, harg3.read_unread, harg5.read_unread, View.ld_unit_zero (S := S128x5x100) run1_hz3, View.ld_unit_zero (S := S128x100) run1_hz2]
  rfl

set_option maxHeartbeats 1000000 in
/-- Case B (j = 1, 2): the scratch goes from `acc` to `upd x0 x1 acc`; the output block is not touched. -/
theorem run1_B (c : Dev nD) (i : grid1.Coords) (arg2 : Memref sig .tc .vmem S128x5x100 .f32) (harg2 : arg2.IsWhole)
    (arg3 : Memref sig .tc .vmem S128x5x100 .f32) (harg3 : arg3.IsWhole) (arg4 : Memref sig .tc .vmem S128x100 .f32) (harg4 : arg4.IsWhole)
    (arg5 : Memref sig .tc .vmem S128x100 .f32) (harg5 : arg5.IsWhole) (hc0 : ¬cond1_0 i) (hc1 : ¬cond1_1 i)
    (x0 x1 : Vec F S128x5x100 .f32) (acc : Vec F S128x100 .f32) (E : Set ℕ) (K : PUnit → sProp 𝕄) :
    iprop(owns (c : Thread nD τ) arg2 fullShare x0 ∗ owns (c : Thread nD τ) arg3 fullShare x1 ∗ owns (c : Thread nD τ) arg5 fullShare acc
        ∗ (iprop(owns (c : Thread nD τ) arg2 fullShare x0 ∗ owns (c : Thread nD τ) arg3 fullShare x1
            ∗ owns (c : Thread nD τ) arg5 fullShare (upd x0 x1 acc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton]
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg5.eq_unread hfs0
  -- the body, statement by statement; each branch decided by the case's hypotheses
  sl_exec (disch := first | exact hc0 | exact hc1)
  sl_step
  iapply Hk
  -- the two input blocks are handed back as they were
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  -- the scratch after its one whole-block store is the stored value, over the blocks as loaded
  rw [View.read_writes_eq_canon _ _ _ (run1_cover _ _ _)]
  sl_unfold_words
  rw [View.canon_unit_zero run1_hz2]
  simp only [View.readAt_eq_ld, harg2.read_unread, harg3.read_unread, harg5.read_unread, View.ld_unit_zero (S := S128x5x100) run1_hz3, View.ld_unit_zero (S := S128x100) run1_hz2]
  rfl

set_option maxHeartbeats 1000000 in
/-- Case C (j = 3): the scratch goes from `acc` to `upd x0 x1 acc`, and the output block, at anything, ends holding the same. -/
theorem run1_C (c : Dev nD) (i : grid1.Coords) (arg2 : Memref sig .tc .vmem S128x5x100 .f32) (harg2 : arg2.IsWhole)
    (arg3 : Memref sig .tc .vmem S128x5x100 .f32) (harg3 : arg3.IsWhole) (arg4 : Memref sig .tc .vmem S128x100 .f32) (harg4 : arg4.IsWhole)
    (arg5 : Memref sig .tc .vmem S128x100 .f32) (harg5 : arg5.IsWhole) (hc0 : ¬cond1_0 i) (hc1 : cond1_1 i)
    (x0 x1 : Vec F S128x5x100 .f32) (acc : Vec F S128x100 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare acc
        ∗ (iprop(owns (c : Thread nD τ) arg2 fullShare x0 ∗ owns (c : Thread nD τ) arg3 fullShare x1
            ∗ owns (c : Thread nD τ) arg4 fullShare (upd x0 x1 acc) ∗ owns (c : Thread nD τ) arg5 fullShare (upd x0 x1 acc)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton]
  unfold owns
  iintro ⟨⟨%f0, %hf0, H0⟩, ⟨%f1, %hf1, H1⟩, ⟨%d4, %f4, -, H4⟩, ⟨%fs0, %hfs0, HS0⟩, Hk⟩
  obtain rfl := harg2.eq_unread hf0; obtain rfl := harg3.eq_unread hf1; obtain rfl := harg5.eq_unread hfs0
  -- the body, statement by statement; each branch decided by the case's hypotheses
  sl_exec (disch := first | exact hc0 | exact hc1)
  sl_step
  iapply Hk
  -- the two input blocks are handed back as they were
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    -- the output block after its one whole-block store holds what was loaded from the scratch just stored
    sl_unfold_words
    rw [View.read_writes_eq_canon _ _ _ (run1_cover _ _ _), View.canon_unit_zero run1_hz2]
    simp only [View.readCov_unit_zero (S := S128x100) _ run1_hz2, View.readAt_eq_ld, harg2.read_unread, harg3.read_unread, harg5.read_unread, View.ld_unit_zero (S := S128x5x100) run1_hz3, View.ld_unit_zero (S := S128x100) run1_hz2]
    rfl
  iexists _; isplitr
  swap; · iexact HS0
  ipureintro
  -- the scratch after its one whole-block store is the stored value, over the blocks as loaded
  sl_unfold_words
  rw [View.read_writes_eq_canon _ _ _ (run1_cover _ _ _), View.canon_unit_zero run1_hz2]
  simp only [View.readCov_unit_zero (S := S128x100) _ run1_hz2, View.readAt_eq_ld, harg2.read_unread, harg3.read_unread, harg5.read_unread, View.ld_unit_zero (S := S128x5x100) run1_hz3, View.ld_unit_zero (S := S128x100) run1_hz2]
  rfl

end Cert.KernelIdeal.Hand

end
-- ==== Proof.KI.Reg1.lean ====
/-
  Region 1 of the kernel program: the pairwise L1 / exp / sum stage on the 4 x 4 grid of (row tile i, other-batch tile j).
  One array (the projected features, laid out [B, D, K]) is handed to the kernel through TWO windows: window 0 reads
  the row tile i, window 1 the other-batch tile j. A VMEM scratch carries the running sum over j: it is reset where
  j = 0, added to at every point, and copied into the output block where j = 3 (the only points that write back).
  This module names what the scratch holds after each point as a recursion over the points, and packages the
  pipeline's proof data and the body obligation at any entry contents `V`.
-/
import proofs.«162111_j16552803959337_1_alg».proof.Proof.KI.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: what the scratch holds after the body at position `n`. Where j = 0 (n ≡ 0 mod 4) the body first
    resets it to zeros, so the point's contribution is added to zeros; elsewhere to what the point before left. -/
def scAt (c : Dev nD) : (n : ℕ) → n < cfg1.N → Vec F S128x100 .f32
  | 0, hn => upd (iblk1 V c 0 ⟨0, hn⟩) (iblk1 V c 1 ⟨0, hn⟩) (k1_pay2 (F := F))
  | n + 1, hn =>
    if (n + 1) % 4 = 0 then upd (iblk1 V c 0 ⟨n + 1, hn⟩) (iblk1 V c 1 ⟨n + 1, hn⟩) (k1_pay2 (F := F))
    else upd (iblk1 V c 0 ⟨n + 1, hn⟩) (iblk1 V c 1 ⟨n + 1, hn⟩) (scAt c n (Nat.lt_of_succ_lt hn))

theorem scAt_reset (c : Dev nD) (t : Fin cfg1.N) (h : t.val % 4 = 0) :
    scAt V c t.val t.isLt = upd (iblk1 V c 0 t) (iblk1 V c 1 t) (k1_pay2 (F := F)) := by
  obtain ⟨n, hn⟩ := t
  cases n with
  | zero => rfl
  | succ n => exact if_pos h

theorem scAt_acc (c : Dev nD) (t : Fin cfg1.N) (h : ¬ t.val % 4 = 0) :
    scAt V c t.val t.isLt = upd (iblk1 V c 0 t) (iblk1 V c 1 t) (scAt V c (t.val - 1) (Nat.lt_of_le_of_lt (Nat.sub_le _ _) t.isLt)) := by
  obtain ⟨n, hn⟩ := t
  cases n with
  | zero => exact absurd (Nat.zero_mod _) h
  | succ n => exact if_neg h

/-- The scratch buffer as the kernel is handed it. -/
abbrev scM : Memref sig .tc .vmem S128x100 .f32 := Memref.whole cc1_scratch0

/-- What rides beside the carried scratch in the invariant after the first point: the other scoped buffers no window of this
    region stages (region 0's staging buffers), each at anything, and the generator register at some state. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ r, prngReg c r))

/-- The region invariant before position `n`: before the first point the class's (every scratch at anything); afterwards
    the carried scratch at what the point before left in it (`scAt`), the rest at anything. -/
def PhiS (c : Dev nD) : (n : ℕ) → n ≤ cfg1.N → sProp 𝕄
  | 0, _ => Pipeline.ΦA spec1 c
  | n + 1, hn => iprop(owns (c : Thread nD τ) scM fullShare (scAt V c n hn) ∗ rest1 (F := F) c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(owns (c : Thread nD τ) scM fullShare (scAt V c n hn) ∗ rest1 (F := F) c) := rfl

/-- Before a point that is not the first: the carried scratch at what the point before left. -/
theorem PhiS_pos (c : Dev nD) (n : ℕ) (h : n ≤ cfg1.N) (hz : n ≠ 0) :
    PhiS V c n h = iprop(owns (c : Thread nD τ) scM fullShare (scAt V c (n - 1) (by omega)) ∗ rest1 (F := F) c) := by
  cases n with
  | zero => exact absurd rfl hz
  | succ n => rfl

/-- The last of four conjuncts moved in front of the others and of a fifth beside them: `∗` is associative and
    commutative. -/
theorem sep_last_to_front (A B C S G : sProp 𝕄) : iprop((A ∗ B ∗ C ∗ S) ∗ G) = iprop(S ∗ A ∗ B ∗ C ∗ G) := by
  have h₁ : iprop((A ∗ B ∗ C ∗ S) ∗ G) ⊢ iprop(S ∗ A ∗ B ∗ C ∗ G) := by
    iintro ⟨⟨Ha, Hb, Hc, Hs⟩, Hg⟩
    isplitl [Hs]; · iexact Hs
    isplitl [Ha]; · iexact Ha
    isplitl [Hb]; · iexact Hb
    isplitl [Hc]; · iexact Hc
    iexact Hg
  have h₂ : iprop(S ∗ A ∗ B ∗ C ∗ G) ⊢ iprop((A ∗ B ∗ C ∗ S) ∗ G) := by
    iintro ⟨Hs, Ha, Hb, Hc, Hg⟩
    isplitr [Hg]
    · isplitl [Ha]; · iexact Ha
      isplitl [Hb]; · iexact Hb
      isplitl [Hc]; · iexact Hc
      iexact Hs
    iexact Hg
  exact BI.equiv_iff.mp ⟨h₁, h₂⟩

/-- The class's invariant with the carried scratch set apart as a memref owned at some contents: the scoped rest is the
    four buffers one by one, the scratch last; moving it to the front is associativity and commutativity of `∗`. -/
theorem PhiA1_eq (c : Dev nD) :
    (Pipeline.ΦA spec1 c : sProp 𝕄) = iprop((∃ d, owns (c : Thread nD τ) scM fullShare d) ∗ rest1 (F := F) c) := by
  unfold Pipeline.ΦA rest1; rw [scopedRest1_eq]; simp only [scM, owns_whole]
  exact sep_last_to_front (F := F) _ _ _ _ _

/-- The proof data of pipeline 1 on core `c` at entry contents `V`: the two input windows on the one array hold it at the two
    halves of the full share; after the body each input's buffer is at its block, and the output's at the running sum (read
    only at the points that write it back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scAt V c t.val t.isLt
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scAt V c t.val t.isLt := by dsimp only [dat1]

/-- Each input's current staging buffer holds its block at every point, fetched there or not: unfetched, the block
    index has not moved, and the body leaves the block in place. Both windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- Each window's current staging memref at point `t`, as the pipeline passes it to the body, and its wholeness. -/
abbrev ms1_0 (t : Fin cfg1.N) : Memref sig .tc .vmem S128x5x100 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x5x100 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x100 .f32 := win1_2.stage (cfg1.slots t 2)
abbrev hs1_2 (t : Fin cfg1.N) : (ms1_2 t).IsWhole := hstage1_2 ((cfg1.slots t 2).cast nbuf1_2)

/-- What the body is called with at point `t`: the invariant, what the core owes, and the three windows' current buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks. Where j = 0 the scratch, at whatever the invariant has
    it (anything before the first point; what the point before left afterwards), is reset and then holds this point's
    contribution over zeros; elsewhere it goes from what the point before left to that with this point's contribution
    added. The output's buffer is handed back as found except where j = 3, where it ends at the scratch's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val % 4 = 0
  · -- j = 0: reset, then add
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [scAt_reset V c t h0]
    have hpre : (dat1 V c).Φ t.castSucc ⊢ iprop((∃ d, owns (c : Thread nD τ) scM fullShare d) ∗ rest1 (F := F) c) := by
      rw [PhiS_castSucc V c t]
      by_cases hz : t.val = 0
      · rw [PhiS_zero V c _ _ hz, PhiA1_eq]
      · rw [PhiS_pos V c _ _ hz]
        iintro ⟨HS, HR⟩
        isplitl [HS]; · iexists _; iexact HS
        iexact HR
    refine (sep_mono hpre .rfl).trans ?_
    iintro ⟨⟨HS, HR⟩, Ho, ⟨%d0, H0⟩, ⟨%d1, H1⟩, ⟨%d2, H2⟩⟩
    iapply (run1_A c (grid1.coords t) _ _ _ _ _ _ _ _ hc0 hc1 (iblk1 V c 0 t) (iblk1 V c 1 t) Set.univ _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    iexists _; iexact H2
  · have hz : t.val ≠ 0 := fun e => h0 (by rw [e])
    have hc0 : ¬cond1_0 (grid1.coords t) := fun h => h0 ((hcond1_0 t).mp h)
    rw [scAt_acc V c t h0]
    rw [PhiS_castSucc V c t, PhiS_pos V c _ _ hz]
    by_cases h1 : t.val % 4 = 3
    · -- j = 3: add, then copy out
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, scAt_acc V c t h0]
      iintro ⟨⟨HS, HR⟩, Ho, ⟨%d0, H0⟩, ⟨%d1, H1⟩, ⟨%d2, H2⟩⟩
      iapply (run1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · -- j = 1, 2: add
      have hc1 : ¬cond1_1 (grid1.coords t) := fun h => h1 ((hcond1_1 t).mp h)
      rw [Dat.leavesExact_idle (dat1 V c) 2 t (idleAt1_2 t hc1) (noFlush1_2 t hc1)]
      iintro ⟨⟨HS, HR⟩, Ho, ⟨%d0, H0⟩, ⟨%d1, H1⟩, ⟨%d2, H2⟩⟩
      iapply (run1_B c (grid1.coords t) _ _ _ _ _ _ _ _ hc0 hc1 (iblk1 V c 0 t) (iblk1 V c 1 t) _ Set.univ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the carried scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨HS, HR⟩
  isplitl [HS]; · iexists _; iexact HS
  iexact HR

end Cert.KernelIdeal.Hand

end
-- ==== Proof.KI.Share1.lean ====
/-
  Region 1 reads ONE array (the projected features) through two input windows. At the region's entry the array's
  buffer, held whole, is dealt to the two windows at the two halves of the full share; at its exit the halves are put
  together again. The output window's array is held outright both ways.
-/
import proofs.«162111_j16552803959337_1_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's windows are two: the shared input array and the output's array. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v2) ↦{fullShare} X main_v2) ∗ (((c : Thread nD τ).loc main_v3) ↦{fullShare} X main_v3)) := by
  unfold Pipeline.arrBufs
  exact bigSep_eq_bigSepL_of_eq [main_v2, main_v3] (by decide) (by decide) _

/-- The share each window's array is held at: the two inputs the two halves of the full share, the output the full share. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

/-- A window's array is a whole buffer: holding its view's elements is holding every element of the buffer behind it. -/
theorem win1_pt (c : Dev nD) (w : Fin cfg1.W) (q : PosShare TreeShare) (X : Buf (Elt F) ((cfg1.win w).arr.view.loc (c : Thread nD τ))) :
    (((cfg1.win w).arr.view.loc (c : Thread nD τ)) ↦[(cfg1.win w).arr.view.set]{q} X : sProp 𝕄)
      = (((c : Thread nD τ).loc (Pipeline.arrRef spec1 w)) ↦{q} X) := by
  rw [(arr_whole1 w).set_eq_univ]

/-- ENTRY: the distinct buffers behind region 1's windows, whole at the entry contents, are the proof data's arrays at entry:
    the shared array split between windows 0 and 1 along the share, the output's array outright. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq]
  unfold Dat.arrays
  rw [bigSep_W1, win1_pt, win1_pt, win1_pt, share1_0, share1_1, share1_2]
  -- windows 0 and 1 sit on the one array, at its entry contents; the full share is its left half composed with its right half
  refine (show iprop((((c : Thread nD τ).loc main_v2) ↦{fullShare} V c main_v2) ∗ (((c : Thread nD τ).loc main_v3) ↦{fullShare} V c main_v3))
    ⊢ (iprop((((c : Thread nD τ).loc main_v2) ↦{fullShare.left} V c main_v2) ∗ (((c : Thread nD τ).loc main_v2) ↦{fullShare.right} V c main_v2)
        ∗ (((c : Thread nD τ).loc main_v3) ↦{fullShare} V c main_v3)) : sProp 𝕄) from ?_)
  iintro ⟨H2, H3⟩
  ihave H := (pointsTo_share (PosShare.mem_left_op_right fullShare)).1 $$ H2
  icases H with ⟨Hl, Hr⟩
  isplitl [Hl]; · iexact Hl
  isplitl [Hr]; · iexact Hr
  iexact H3

/-- EXIT: the proof data's arrays at their final contents are the distinct buffers behind the windows, whole, at any contents
    `V'` that has the shared input array as entered and the output's array at what the write-backs left. -/
theorem hjoin1 (c : Dev nD) (V' : (b : Ref sig .tc) → Buf (Elt F) ((c : Thread nD τ).loc b))
    (h2 : V' main_v2 = V c main_v2) (h3 : V' main_v3 = (dat1 V c).arrAt 2 cfg1.N) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, h2, h3]
  unfold Dat.arrays
  rw [bigSep_W1, win1_pt, win1_pt, win1_pt, share1_0, share1_1, share1_2]
  dsimp only
  -- an input window's array is never written: at the exit both inputs hold the shared array as entered
  rw [(dat1 V c).arrAt_in 0 rfl, (dat1 V c).arrAt_in 1 rfl]
  refine (show (iprop((((c : Thread nD τ).loc main_v2) ↦{fullShare.left} V c main_v2) ∗ (((c : Thread nD τ).loc main_v2) ↦{fullShare.right} V c main_v2)
        ∗ (((c : Thread nD τ).loc main_v3) ↦{fullShare} (dat1 V c).arrAt 2 cfg1.N)) : sProp 𝕄)
      ⊢ iprop((((c : Thread nD τ).loc main_v2) ↦{fullShare} V c main_v2) ∗ (((c : Thread nD τ).loc main_v3) ↦{fullShare} (dat1 V c).arrAt 2 cfg1.N)) from ?_)
  iintro ⟨Hl, Hr, H3⟩
  isplitr [H3]
  · -- the two halves, at the same contents, compose to the full share
    iapply (pointsTo_share (PosShare.mem_left_op_right fullShare)).2
    isplitl [Hl]; · iexact Hl
    iexact Hr
  · iexact H3

end Cert.KernelIdeal.Hand

end
-- ==== Proof.KI.Run.lean ====
/-
  The kernel program's run as a whole: @main is region 0 (the projection), a host stretch (a reshape and a transpose that
  lay the projected features out as [B, D, K]), and region 1 (the pairwise stage). The buffer contents at each boundary are a
  fold from the launch memory: a region leaves its output array at what its write-backs leave and everything else as
  entered; the host stretch is the composition of its two operations. Every weakly fair execution terminates with every
  unscoped buffer at the last boundary's contents; the argument arrays read back to the launch memory, and the result
  array to region 1's output.
-/
import proofs.«162111_j16552803959337_1_alg».proof.Proof.KI.Reg0
import proofs.«162111_j16552803959337_1_alg».proof.Proof.KI.Reg1
import proofs.«162111_j16552803959337_1_alg».proof.Proof.KI.Share1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: @main begins with it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: the product array at what the one write-back leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit: the result array at what the write-backs leave, every other buffer as entered. -/
def W3 (c : Dev nD) : Valuation τ sig (Elt F) :=
  Function.update (W2 m ρ c) (Proc.devRef .tc main_v3) ((dat1 (V2 m ρ) c).arrAt 2 cfg1.N)
theorem W3_v3 (c : Dev nD) : W3 m ρ c (Proc.devRef .tc main_v3) = (dat1 (V2 m ρ) c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-! ## The arguments end as launched

No host operation writes an argument and no region may change one: region 0 reads both through input windows, the host
stretch writes only the two layout buffers, region 1 bypasses them. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0: entered from every unscoped buffer at launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's arrays the exit contents are the entry contents. -/
theorem unscopedRest1_exit (c : Dev nD) :
    (Pipeline.unscopedRest (Ix := Unit) (Name := ℕ) (U := UR sig nD τ) (Lvl := ℕ) spec1 c (V2 m ρ c) : sProp 𝕄)
      = Pipeline.unscopedRest spec1 c (V3 m ρ c) := by
  unfold Pipeline.unscopedRest
  refine BI.bigSep_congr fun b hb => ?_
  rw [show V3 m ρ c b = V2 m ρ c b from W3_of_ne m ρ c b fun e => (Finset.mem_sdiff.mp hb).2
    (Finset.mem_image.mpr ⟨2, Finset.mem_univ _, e ▸ rfl⟩)]

set_option backward.isDefEq.respectTransparency.types false in
/-- REGION 1: entered from every unscoped buffer at `W2`, left at `W3`. Its two input windows share one array: the array's
    buffer is dealt to them along the share at the entry and put together at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsE : (StableHlo.held (c : Thread nD τ) (Pipeline.ucRefs τ sig) (W2 m ρ c) : sProp 𝕄)
        ⊢ iprop(Pipeline.arrBufs spec1 c (V2 m ρ c) ∗ Pipeline.unscopedRest spec1 c (V2 m ρ c)) := by
      have hs := Pipeline.unscopedBufs_split₀ (Ix := Unit) (Name := ℕ) (U := UR sig nD τ) (Lvl := ℕ) (Pipeline.pin (pcfgs (F := F)) adm) 1 winFacts₀1.arr_unscoped c (V2 m ρ c)
      rw [Pipeline.unscopedBufs_held] at hs
      exact Entails.of_eq hs
    have hsp : (Pipeline.arrBufs (Ix := Unit) (Name := ℕ) (U := UR sig nD τ) (Lvl := ℕ) spec1 c (V2 m ρ c) : sProp 𝕄)
        ⊢ (pdats m ρ 1 c).arrays ((pdats m ρ 1 c).arrAt · 0) := hsplit1 (V2 m ρ) c
    iintro ⟨⟨Hub, Hp, HO⟩, -, -⟩
    ihave H := hsE $$ Hub
    icases H with ⟨Hb, Hrest⟩
    ihave Ha := hsp $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (pdats m ρ 1 c).Φ 0 = (dat1 (V2 m ρ) c).Φ 0 := rfl
    rw [h1]
    exact (show _ ⊢ (Pipeline.ΦA spec1 c : sProp 𝕄) from by
      unfold Pipeline.ΦA
      iintro ⟨Hp, -, Hr⟩
      isplitl [Hr]; · iexact Hr
      iexact Hp).trans (hin1 (V2 m ρ) c)
  hout c := by
    rw [Pipeline.ownSems0_none]
    have h1 : (pdats m ρ 1 c).Φ (Fin.last _) = (dat1 (V2 m ρ) c).Φ (Fin.last cfg1.N) := rfl
    rw [h1]
    exact (hout1 (V2 m ρ) c).trans (by
      unfold Pipeline.ΦA
      iintro ⟨Hr, Hp⟩
      isplitl [Hp]; · iexact Hp
      isplitr; · iempintro
      iexact Hr)
  hexit c := by
    have hsE : iprop(Pipeline.arrBufs spec1 c (V3 m ρ c) ∗ Pipeline.unscopedRest spec1 c (V2 m ρ c))
        ⊢ (StableHlo.held (c : Thread nD τ) (Pipeline.ucRefs τ sig) (W3 m ρ c) : sProp 𝕄) := by
      have hs := Pipeline.unscopedBufs_split₀ (Ix := Unit) (Name := ℕ) (U := UR sig nD τ) (Lvl := ℕ) (Pipeline.pin (pcfgs (F := F)) adm) 1 winFacts₀1.arr_unscoped c (V3 m ρ c)
      rw [Pipeline.unscopedBufs_held] at hs
      rw [unscopedRest1_exit m ρ c]
      exact Entails.of_eq hs.symm
    have hj : (pdats m ρ 1 c).arrays ((pdats m ρ 1 c).arrAt · (Pipeline.pin (pcfgs (F := F)) adm 1).N)
        ⊢ (Pipeline.arrBufs (Ix := Unit) (Name := ℕ) (U := UR sig nD τ) (Lvl := ℕ) spec1 c (V3 m ρ c) : sProp 𝕄) :=
      hjoin1 (V2 m ρ) c (V3 m ρ c) (W3_of_ne m ρ c main_v2 (by decide)) (W3_v3 m ρ c)
    iintro ⟨Ha, HO, HY, Hrest⟩
    ihave Hb := hj $$ Ha
    imodintro
    isplitl [Hb Hrest HY]
    · isplitl [Hb Hrest]
      · iapply hsE; isplitl [Hb] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    every final state has every unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_main m ρ)

end Cert.KernelIdeal.Hand

end
-- ==== Proof.KI.Value0.lean ====
/-
  The output array after region 0. The region has one grid point and every block is its whole array, so the array
  the region leaves is the matmul payload of the two whole argument arrays.
-/
import proofs.«162111_j16552803959337_1_alg».proof.Proof.KI.Reg0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows' index maps at every point of the one-point grid: each window sits at block 0 on both axes. -/
theorem index0_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first operand's block at the point is the whole first argument array: block 0 of size the array's. -/
theorem iblk0_0_eq (c : Dev nD) (t : Fin cfg0.N) : iblk0 V c 0 t = V c main_arg0 := by
  obtain ⟨e0, e1, -⟩ := index0_zero t
  funext y
  show V c main_arg0 (((cfg0.win 0).blk t).view.emb y) = V c main_arg0 y
  refine congrArg _ ?_
  funext a; apply Fin.ext
  match a with
  | ⟨0, _⟩ => show win0_0.index t (0 : Fin 2) * 512 + 1 * (y 0).val = (y 0).val; omega
  | ⟨1, _⟩ => show win0_0.index t (1 : Fin 2) * 1024 + 1 * (y 1).val = (y 1).val; omega

/-- The second operand's block at the point is the whole second argument array. -/
theorem iblk0_1_eq (c : Dev nD) (t : Fin cfg0.N) : iblk0 V c 1 t = V c main_arg1 := by
  obtain ⟨-, -, e2, e3, -⟩ := index0_zero t
  funext y
  show V c main_arg1 (((cfg0.win 1).blk t).view.emb y) = V c main_arg1 y
  refine congrArg _ ?_
  funext a; apply Fin.ext
  match a with
  | ⟨0, _⟩ => show win0_1.index t (0 : Fin 2) * 1024 + 1 * (y 0).val = (y 0).val; omega
  | ⟨1, _⟩ => show win0_1.index t (1 : Fin 2) * 500 + 1 * (y 1).val = (y 1).val; omega

/-- What the point writes back is the output block of the payload of the whole argument arrays: the body leaves the
    payload of its operand blocks, the operand blocks are the whole arrays, and the output block is block 0 of size
    the array's, so reading it off any array gives that array. -/
theorem flushed0_2_eq (c : Dev nD) (t : Fin cfg0.N) :
    (dat0 V c).flushed 2 t = ((cfg0.win 2).blk t).view.read (Elt F) (k0_pay1 (V c main_arg0) (V c main_arg1)) := by
  show (cfg0.win 2).cut (grid0.coords t) ((dat0 V c).after 2 t) = _
  rw [after0_2, out0_2_eq, iblk0_0_eq, iblk0_1_eq]
  obtain ⟨-, -, -, -, e4, e5⟩ := index0_zero t
  funext j
  show k0_pay1 (V c main_arg0) (V c main_arg1) ((cfg0.win 2).xinj (grid0.coords t) j)
    = k0_pay1 (V c main_arg0) (V c main_arg1) (((cfg0.win 2).blk t).view.emb j)
  refine congrArg _ ?_
  funext a; apply Fin.ext
  match a with
  | ⟨0, _⟩ => show (j 0).val = win0_2.index t (0 : Fin 2) * 512 + 1 * (j 0).val; omega
  | ⟨1, _⟩ => show (j 1).val = win0_2.index t (1 : Fin 2) * 500 + 1 * (j 1).val; omega

/-- Every index of the output array is in the single point's block, which that point writes back. -/
theorem covered0_2 (c : Dev nD) (i : ((cfg0.win 2).arr.view.loc (c.tc : Thread nD τ)).2.ty.Idx) :
    ∃ t : Fin cfg0.N, (cfg0.win 2).flush t = true ∧ i ∈ ((cfg0.win 2).blk t).view.set := by
  obtain ⟨-, -, -, -, e4, e5⟩ := index0_zero t0_0
  refine ⟨t0_0, flush0_2 t0_0, ?_⟩
  show i ∈ ((View.whole main_v0).slice (win0_2.rect t0_0)).set
  rw [View.set_slice_whole, Rect.mem_set_unit]
  intro a
  match a with
  | ⟨0, _⟩ =>
    show win0_2.index t0_0 (0 : Fin 2) * 512 ≤ (i 0).val ∧ (i 0).val < win0_2.index t0_0 (0 : Fin 2) * 512 + 512
    have hi : (i 0).val < 512 := (i 0).isLt
    omega
  | ⟨1, _⟩ =>
    show win0_2.index t0_0 (1 : Fin 2) * 500 ≤ (i 1).val ∧ (i 1).val < win0_2.index t0_0 (1 : Fin 2) * 500 + 500
    have hi : (i 1).val < 500 := (i 1).isLt
    omega

/-- The output array after the region's single point is the matmul payload of the two whole argument arrays. -/
theorem arrAt0_2 (V : (c : Dev nD) → (b : Ref sig .tc) → Buf (Elt F) ((c : Thread nD τ).loc b)) (c : Dev nD) :
    (dat0 V c).arrAt 2 cfg0.N = k0_pay1 (V c main_arg0) (V c main_arg1) :=
  (dat0 V c).arrAt_eq_of_cover 2 (k0_pay1 (V c main_arg0) (V c main_arg1)) (fun t _ => flushed0_2_eq V c t) (covered0_2 c)

end Cert.KernelIdeal.Hand

end
-- ==== Proof.Spec.lean ====
/-
  The specification both programs compute, at the ideal instance, as a function of the projected features.
  `y` is the projection `inputs · T`, a [512, 500] array whose column 5k + d is component d of kernel k. For a row b and
  a kernel k the feature is the sum over ALL rows j (the row itself included) of exp(−‖y[b, k, ·] − y[j, k, ·]‖₁), the L1
  distance taken over the five components. `lay` is the same array laid out [B, D, K], the layout the kernel reads.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- The projected features, [B, K·D]. -/
abbrev SY : Shape := ⟨2, ![512, 500]⟩
/-- The same laid out [B, D, K]. -/
abbrev SX : Shape := ⟨3, ![512, 5, 100]⟩
/-- The result, [B, K]. -/
abbrev SO : Shape := ⟨2, ![512, 100]⟩

/-- The column of `y` that holds component `d` of kernel `k`. -/
def col (k : Fin 100) (d : Fin 5) : Fin 500 := ⟨5 * k.val + d.val, by omega⟩

/-- The absolute value on the extended reals, as the ideal instance reads `absf`. -/
def absE (x : EReal) : EReal := max x (-x)

/-- [B, K·D] laid out as [B, D, K]: entry (b, d, k) is entry (b, 5k + d). -/
def lay (y : SY.Idx → EReal) : SX.Idx → EReal := fun i => y (ix2 (i 0) (col (i 2) (i 1)))

/-- The L1 distance between rows `b` and `j` over the five components of kernel `k`, on the [B, D, K] layout. -/
def dist (x : SX.Idx → EReal) (b j : Fin 512) (k : Fin 100) : EReal :=
  ∑ d : Fin 5, absE (x (ix3 b d k) - x (ix3 j d k))

/-- The features from the [B, D, K] layout: the sum over all rows `j` of exp(−distance). -/
def featX (x : SX.Idx → EReal) : SO.Idx → EReal := fun i => ∑ j : Fin 512, Ideal.exp (-(dist x (i 0) j (i 1)))

/-- The features from the projection. -/
def feat (y : SY.Idx → EReal) : SO.Idx → EReal := featX (lay y)

end Cert.Spec

end
-- ==== Proof.KI.UpdValue.lean ====
/-
  One point's update of the running sum, read at an index at the ideal instance: entry (r, k) of the updated sum is the
  old entry plus the sum, over the 128 rows jj of the other-batch tile, of exp(−L1 distance between row r of the row tile
  and row jj of the other-batch tile over the five components of kernel k).
-/
import proofs.«162111_j16552803959337_1_alg».proof.Proof.KI.Reg1Runs
import proofs.«162111_j16552803959337_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec
open scoped BigOperators

/-! ## Layout operations that keep a unit axis, read at an index -/

section Layout
variable {α : Type}

/-- An `[a, b]` array cast to `[a, 1, b]` reads, at `(i, u, j)`, the operand at `(i, j)`. -/
theorem upd_shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem upd_shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, 1, b]` array broadcast to `[a, m, b]` reads, at `(i, p, j)`, the operand at `(i, 0, j)`. -/
theorem upd_broadcastTo_a1b_amb_apply {a m b : ℕ} (v : (⟨3, ![a, 1, b]⟩ : Shape).Idx → α)
    (h : (⟨3, ![a, 1, b]⟩ : Shape).Broadcasts ⟨3, ![a, m, b]⟩) (i : Fin a) (p : Fin m) (j : Fin b) :
    broadcastTo ⟨3, ![a, m, b]⟩ v h (ix3 i p j) = v (ix3 i (0 : Fin 1) j) := by
  refine broadcastTo_apply v h (ix3 i p j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, a, b]` array broadcast to `[m, a, b]` reads, at `(p, i, j)`, the operand at `(0, i, j)`. -/
theorem upd_broadcastTo_1ab_mab_apply {a m b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Layout

/-! ## The two broadcast operands of one component's difference -/

section Rows
variable {α : Type}

/-- Component `d` of the row tile, kept as a column and broadcast along the rows of the other tile: at `(r, jj, k)` it
    reads the row tile at `(r, d, k)`. -/
theorem upd_rowA_apply (X : S128x5x100.Idx → α) (o : ℕ) (d : Fin 5) (hd : d.val = o)
    (h1 : S128x5x100.Slices ![0, o, 0] S128x1x100) (h2 : S128x1x100.ShapeCasts S128x100)
    (h3 : S128x100.ShapeCasts S128x1x100) (h4 : S128x1x100.Broadcasts S128x128x100)
    (r : Fin 128) (jj : Fin 128) (k : Fin 100) :
    broadcastTo S128x128x100 (shapeCast S128x1x100 (shapeCast S128x100 (extractStridedSlice S128x1x100 ![0, o, 0] X h1) h2) h3) h4
        (ix3 r jj k) = X (ix3 r d k) :=
  (upd_broadcastTo_a1b_amb_apply _ h4 r jj k).trans <|
    (upd_shapeCast_ab_a1b_apply _ h3 r 0 k).trans <|
      (upd_shapeCast_a1b_ab_apply _ h2 r k).trans <|
        slice3_axis1_apply o X h1 r (0 : Fin 1) k d (by rw [hd]; rfl)

/-- Component `d` of the other tile, laid along the second axis and broadcast along the rows of the row tile: at
    `(r, jj, k)` it reads the other tile at `(jj, d, k)`. -/
theorem upd_rowB_apply (X : S128x5x100.Idx → α) (o : ℕ) (d : Fin 5) (hd : d.val = o)
    (h1 : S128x5x100.Slices ![0, o, 0] S128x1x100) (h2 : S128x1x100.ShapeCasts S128x100)
    (h3 : S128x100.ShapeCasts S1x128x100) (h4 : S1x128x100.Broadcasts S128x128x100)
    (r : Fin 128) (jj : Fin 128) (k : Fin 100) :
    broadcastTo S128x128x100 (shapeCast S1x128x100 (shapeCast S128x100 (extractStridedSlice S128x1x100 ![0, o, 0] X h1) h2) h3) h4
        (ix3 r jj k) = X (ix3 jj d k) :=
  (upd_broadcastTo_1ab_mab_apply _ h4 r jj k).trans <|
    (shapeCast_ab_1ab_apply _ h3 0 jj k).trans <|
      (upd_shapeCast_a1b_ab_apply _ h2 jj k).trans <|
        slice3_axis1_apply o X h1 jj (0 : Fin 1) k d (by rw [hd]; rfl)

end Rows

/-- The index the lane sum inserts: row `r`, lane `jj`, kernel `k`. -/
theorem upd_lift_ix (h : S128x128x100.Reduces [1] S128x100) (r : Fin 128) (k : Fin 100) (jj : Fin 128) :
    h.lift (ix2 r k) jj = ix3 r jj k := by
  funext c
  match c with
  | ⟨0, _⟩ => exact Fin.ext rfl
  | ⟨1, _⟩ => exact Fin.ext rfl
  | ⟨2, _⟩ => exact Fin.ext rfl

/-! ## The pointwise operations the library does not name, at an index -/

section AtIdeal
variable {s : Shape} {φ : FTy}

/-- An absolute value at an index is the absolute value of the element. -/
theorem upd_absf_at (a : FVec Ideal s φ) (i : s.Idx) : absf a i = absE (a i) := rfl
/-- An exponential at an index is the exponential of the element. -/
theorem upd_exp_at (a : FVec Ideal s φ) (i : s.Idx) : Idealize.ShloMosaic.exp a i = Ideal.exp (a i) := rfl

end AtIdeal

/-! ## The payloads at an index -/

/-- The row tile as loaded: a cast to its own shape. -/
theorem k1_pay3_eq (x : Vec Ideal S128x5x100 .f32) : k1_pay3 (F := Ideal) x = x := by
  unfold k1_pay3; exact shapeCast_self _ _

/-- The other tile as loaded: a cast to its own shape. -/
theorem k1_pay4_eq (x : Vec Ideal S128x5x100 .f32) : k1_pay4 (F := Ideal) x = x := by
  unfold k1_pay4; exact shapeCast_self _ _

/-- Component 3 of the row tile at `(r, jj, k)`. -/
theorem k1_pay7_apply (x0 : Vec Ideal S128x5x100 .f32) (r jj : Fin 128) (k : Fin 100) :
    k1_pay7 (F := Ideal) x0 (ix3 r jj k) = x0 (ix3 r 3 k) := by
  unfold k1_pay7; rw [k1_pay3_eq]; exact upd_rowA_apply x0 3 3 rfl _ _ _ _ r jj k

/-- Component 3 of the other tile, broadcast, at `(r, jj, k)`. -/
theorem k1_pay6_apply (x1 : Vec Ideal S128x5x100 .f32) (h : S1x128x100.Broadcasts S128x128x100) (r jj : Fin 128) (k : Fin 100) :
    broadcastTo S128x128x100 (k1_pay6 (F := Ideal) x1) h (ix3 r jj k) = x1 (ix3 jj 3 k) := by
  unfold k1_pay6; rw [k1_pay4_eq]; exact upd_rowB_apply x1 3 3 rfl _ _ _ _ r jj k

/-- The distance over components 0, 1, 2, summed from zero in that order. -/
theorem k1_pay5_apply (x0 x1 : Vec Ideal S128x5x100 .f32) (r jj : Fin 128) (k : Fin 100) :
    k1_pay5 (F := Ideal) x0 x1 (ix3 r jj k)
      = 0 + absE (x0 (ix3 r 0 k) - x1 (ix3 jj 0 k)) + absE (x0 (ix3 r 1 k) - x1 (ix3 jj 1 k))
          + absE (x0 (ix3 r 2 k) - x1 (ix3 jj 2 k)) := by
  unfold k1_pay5
  rw [k1_pay3_eq, k1_pay4_eq]
  simp only [addf_apply, upd_absf_at, subf_apply, broadcast_apply, Ideal.ofBits_def, Ideal.ofBits_zero_f32]
  rw [upd_rowA_apply x0 0 0 rfl, upd_rowB_apply x1 0 0 rfl, upd_rowA_apply x0 1 1 rfl, upd_rowB_apply x1 1 1 rfl,
    upd_rowA_apply x0 2 2 rfl, upd_rowB_apply x1 2 2 rfl]

/-- The reset value is zero everywhere. -/
theorem pay2_apply (i : S128x100.Idx) : k1_pay2 (F := Ideal) i = (0 : EReal) := by
  unfold k1_pay2
  rw [shapeCast_self, broadcast_apply, Ideal.ofBits_def]
  exact Ideal.ofBits_zero_f32

/-- One point's update at entry (r, k). -/
theorem upd_apply (x0 x1 : Vec Ideal S128x5x100 .f32) (acc : Vec Ideal S128x100 .f32) (r : Fin 128) (k : Fin 100) :
    upd (F := Ideal) x0 x1 acc (ix2 r k)
      = acc (ix2 r k) + ∑ jj : Fin 128, Ideal.exp (-(∑ d : Fin 5, absE (x0 (ix3 r d k) - x1 (ix3 jj d k)))) := by
  unfold upd k1_pay1
  -- the stored value is the old sum plus the lane sum, entry by entry
  rw [shapeCast_self, addf_apply]
  refine congrArg (acc (ix2 r k) + ·) ?_
  -- the sum over axis 1 is the sum over the 128 rows of the other tile
  refine (Ideal.multiReduction_add_single (φ := .f32) _ _ _ _ _ (ix2 r k)).trans ?_
  show ∑ jj : Fin 128, _ = ∑ jj : Fin 128, _
  refine Finset.sum_congr rfl fun (jj : Fin 128) _ => ?_
  rw [upd_lift_ix _ r k jj]
  rw [k1_pay3_eq, k1_pay4_eq]
  simp only [upd_exp_at, addf_apply, upd_absf_at, subf_apply, broadcast_apply, Ideal.ofBits_def, Ideal.ofBits_zero_f32]
  rw [k1_pay5_apply, k1_pay7_apply, k1_pay6_apply, upd_rowA_apply x0 4 4 rfl, upd_rowB_apply x1 4 4 rfl]
  -- zero minus the distance is its negation; the distance summed from zero, component by component, is the sum over the five
  rw [zero_sub, zero_add, Fin.sum_univ_five]

end Cert.KernelIdeal.Hand

end
-- ==== Proof.KI.Value1.lean ====
/-
  Region 1's result array, at the ideal instance, as a function of the array it reads: after the sixteen points the
  [512, 100] result holds, at (b, k), the sum over all 512 rows j of exp(−L1 distance between rows b and j over the five
  components of kernel k). Each row tile's block is written back once, after its four other-batch tiles have been added,
  and the four tiles' 128-row sums make the 512-row sum.
-/
import proofs.«162111_j16552803959337_1_alg».proof.Proof.KI.Reg1
import proofs.«162111_j16552803959337_1_alg».proof.Proof.KI.UpdValue
import proofs.«162111_j16552803959337_1_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Data.Fintype.BigOperators
import Mathlib.Logic.Equiv.Fin.Basic

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec
open scoped BigOperators

variable (V : (c : Dev nD) → (b : Ref sig .tc) → Buf (Elt Ideal) ((c : Thread nD τ).loc b))

/-! ## The 512-row sum as four 128-row tile sums -/

/-- A sum over 512 rows is the sum, over the four 128-row tiles, of the sums inside each tile: the rows are re-indexed
    by (tile, row in tile), row 128·q + jj, and a sum over a product is the iterated sum. -/
theorem sum_rows_tiles {M : Type} [AddCommMonoid M] (f : Fin 512 → M) :
    ∑ j : Fin 512, f j = ∑ q : Fin 4, ∑ jj : Fin 128, f ⟨128 * q.val + jj.val, by omega⟩ := by
  rw [← Fintype.sum_prod_type' (fun (q : Fin 4) (jj : Fin 128) => f ⟨128 * q.val + jj.val, by omega⟩)]
  refine (Fintype.sum_equiv (finProdFinEquiv (m := 4) (n := 128)) _ f (fun p => ?_)).symm
  refine congrArg f (Fin.ext ?_)
  show 128 * p.1.val + p.2.val = p.2.val + 128 * p.1.val
  omega

/-! ## The blocks of the one array the two input windows read -/

/-- The windows' index maps, decided over the grid: at point t = 4·ti + tj the row-tile window and the output window sit
    at block ti of the rows, the other-batch window at block tj, all at block 0 of the other axes. -/
theorem index1_facts : ∀ t : Fin cfg1.N,
    win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0 :=
  (by decide +kernel : ∀ t : Fin grid1.N, _)

/-- The row-tile block at point t, read at (r, d, k), is the array at row 128·(t / 4) + r. -/
theorem iblk1_0_apply (c : Dev nD) (t : Fin cfg1.N) (r : Fin 128) (d : Fin 5) (k : Fin 100) (b : Fin 512)
    (hb : b.val = 128 * (t.val / 4) + r.val) :
    (iblk1 V c 0 t : Vec Ideal S128x5x100 .f32) (ix3 r d k) = V c main_v2 (ix3 b d k) := by
  obtain ⟨e0, e1, e2, -⟩ := index1_facts t
  show V c main_v2 (((cfg1.win 0).blk t).view.emb (ix3 r d k)) = V c main_v2 (ix3 b d k)
  refine congrArg _ ?_
  funext a; apply Fin.ext
  match a with
  | ⟨0, _⟩ => show win1_0.index t (0 : Fin 3) * 128 + 1 * r.val = b.val; omega
  | ⟨1, _⟩ => show win1_0.index t (1 : Fin 3) * 5 + 1 * d.val = d.val; omega
  | ⟨2, _⟩ => show win1_0.index t (2 : Fin 3) * 100 + 1 * k.val = k.val; omega

/-- The other-batch block at point t, read at (jj, d, k), is the array at row 128·(t % 4) + jj. -/
theorem iblk1_1_apply (c : Dev nD) (t : Fin cfg1.N) (jj : Fin 128) (d : Fin 5) (k : Fin 100) (b : Fin 512)
    (hb : b.val = 128 * (t.val % 4) + jj.val) :
    (iblk1 V c 1 t : Vec Ideal S128x5x100 .f32) (ix3 jj d k) = V c main_v2 (ix3 b d k) := by
  obtain ⟨-, -, -, e3, e4, e5, -⟩ := index1_facts t
  show V c main_v2 (((cfg1.win 1).blk t).view.emb (ix3 jj d k)) = V c main_v2 (ix3 b d k)
  refine congrArg _ ?_
  funext a; apply Fin.ext
  match a with
  | ⟨0, _⟩ => show win1_1.index t (0 : Fin 3) * 128 + 1 * jj.val = b.val; omega
  | ⟨1, _⟩ => show win1_1.index t (1 : Fin 3) * 5 + 1 * d.val = d.val; omega
  | ⟨2, _⟩ => show win1_1.index t (2 : Fin 3) * 100 + 1 * k.val = k.val; omega

/-- One point's contribution at (r, k): if the point's row tile reads row b of the array at its row r, and its
    other-batch tile reads row 128·q + jj at its row jj, the sum over the tile's 128 rows of exp(−distance) is the sum
    over the rows 128·q + jj of exp(−distance between rows b and 128·q + jj of the array). -/
theorem tile_sum (x : SX.Idx → EReal) (x0 x1 : Vec Ideal S128x5x100 .f32) (r : Fin 128) (k : Fin 100) (b : Fin 512) (q : Fin 4)
    (h0 : ∀ d : Fin 5, x0 (ix3 r d k) = x (ix3 b d k))
    (h1 : ∀ (jj : Fin 128) (d : Fin 5), x1 (ix3 jj d k) = x (ix3 (⟨128 * q.val + jj.val, by omega⟩ : Fin 512) d k)) :
    ∑ jj : Fin 128, Ideal.exp (-(∑ d : Fin 5, absE (x0 (ix3 r d k) - x1 (ix3 jj d k))))
      = ∑ jj : Fin 128, Ideal.exp (-(Spec.dist x b ⟨128 * q.val + jj.val, by omega⟩ k)) := by
  refine Finset.sum_congr rfl fun jj _ => ?_
  unfold Spec.dist
  refine congrArg (fun s => Ideal.exp (-s)) (Finset.sum_congr rfl fun d _ => ?_)
  rw [h0 d, h1 jj d]

/-! ## The running sum at the last point of a row tile -/

/-- A step of the running sum at a point that is not the first of its row tile. -/
theorem scAt_step (c : Dev nD) (m : ℕ) (h : m + 1 < cfg1.N) (hm : (m + 1) % 4 ≠ 0) :
    scAt V c (m + 1) h = upd (iblk1 V c 0 ⟨m + 1, h⟩) (iblk1 V c 1 ⟨m + 1, h⟩) (scAt V c m (Nat.lt_of_succ_lt h)) :=
  scAt_acc V c ⟨m + 1, h⟩ hm

/-- The running sum only depends on the position. -/
theorem scAt_congr (c : Dev nD) {n m : ℕ} (e : n = m) (hn : n < cfg1.N) (hm : m < cfg1.N) : scAt V c n hn = scAt V c m hm := by
  subst e; rfl

/-- At the last point of row tile n the running sum is four updates over the reset value: the points 4n, …, 4n + 3. -/
theorem scAt_tile (c : Dev nD) (n : ℕ) (h : 4 * n + 3 < cfg1.N) :
    scAt V c (4 * n + 3) h
      = upd (iblk1 V c 0 ⟨4 * n + 3, h⟩) (iblk1 V c 1 ⟨4 * n + 3, h⟩)
          (upd (iblk1 V c 0 ⟨4 * n + 2, by omega⟩) (iblk1 V c 1 ⟨4 * n + 2, by omega⟩)
            (upd (iblk1 V c 0 ⟨4 * n + 1, by omega⟩) (iblk1 V c 1 ⟨4 * n + 1, by omega⟩)
              (upd (iblk1 V c 0 ⟨4 * n, by omega⟩) (iblk1 V c 1 ⟨4 * n, by omega⟩) (k1_pay2 (F := Ideal))))) :=
  (scAt_step V c (4 * n + 2) h (by omega)).trans (congrArg (upd _ _)
    ((scAt_step V c (4 * n + 1) (by omega) (by omega)).trans (congrArg (upd _ _)
      ((scAt_step V c (4 * n) (by omega) (by omega)).trans (congrArg (upd _ _)
        (scAt_reset V c ⟨4 * n, by omega⟩ (by show 4 * n % 4 = 0; omega)))))))

/-- Read at (r, k), that is the sum over all 512 rows j of exp(−distance) between row b = 128·n + r and row j. -/
theorem scAt_tile_apply (c : Dev nD) (n : ℕ) (h : 4 * n + 3 < cfg1.N) (r : Fin 128) (k : Fin 100) (b : Fin 512)
    (hb : b.val = 128 * n + r.val) :
    scAt V c (4 * n + 3) h (ix2 r k) = ∑ j : Fin 512, Ideal.exp (-(Spec.dist (V c main_v2) b j k)) := by
  rw [scAt_tile V c n h, upd_apply, upd_apply, upd_apply, upd_apply, pay2_apply, zero_add,
    sum_rows_tiles, Fin.sum_univ_four]
  rw [tile_sum (V c main_v2) _ _ r k b 0
      (fun d => iblk1_0_apply V c ⟨4 * n, by omega⟩ r d k b (by show _ = 128 * (4 * n / 4) + _; omega))
      (fun jj d => iblk1_1_apply V c ⟨4 * n, by omega⟩ jj d k _ (by show 128 * 0 + jj.val = 128 * (4 * n % 4) + _; omega)),
    tile_sum (V c main_v2) _ _ r k b 1
      (fun d => iblk1_0_apply V c ⟨4 * n + 1, by omega⟩ r d k b (by show _ = 128 * ((4 * n + 1) / 4) + _; omega))
      (fun jj d => iblk1_1_apply V c ⟨4 * n + 1, by omega⟩ jj d k _ (by show 128 * 1 + jj.val = 128 * ((4 * n + 1) % 4) + _; omega)),
    tile_sum (V c main_v2) _ _ r k b 2
      (fun d => iblk1_0_apply V c ⟨4 * n + 2, by omega⟩ r d k b (by show _ = 128 * ((4 * n + 2) / 4) + _; omega))
      (fun jj d => iblk1_1_apply V c ⟨4 * n + 2, by omega⟩ jj d k _ (by show 128 * 2 + jj.val = 128 * ((4 * n + 2) % 4) + _; omega)),
    tile_sum (V c main_v2) _ _ r k b 3
      (fun d => iblk1_0_apply V c ⟨4 * n + 3, h⟩ r d k b (by show _ = 128 * ((4 * n + 3) / 4) + _; omega))
      (fun jj d => iblk1_1_apply V c ⟨4 * n + 3, h⟩ jj d k _ (by show 128 * 3 + jj.val = 128 * ((4 * n + 3) % 4) + _; omega))]

/-! ## What a flushing point writes back, the cover, and the array -/

/-- A point that writes the output back (the last of its row tile) writes the output block of the feature array. -/
theorem flushed1_2_eq (c : Dev nD) (t : Fin cfg1.N) (hf : (cfg1.win 2).flush t = true) :
    (dat1 (F := Ideal) V c).flushed 2 t = ((cfg1.win 2).blk t).view.read (Elt Ideal) (featX (V c main_v2)) := by
  have h3 : t.val % 4 = 3 := (flush1_2 t).mp hf
  have hN : t.val < 16 := lt_of_lt_of_eq t.isLt (show cfg1.N = 16 from N_1)
  obtain ⟨-, -, -, -, -, -, e6, e7⟩ := index1_facts t
  show (cfg1.win 2).cut (grid1.coords t) ((dat1 (F := Ideal) V c).after 2 t) = _
  rw [after1_2]
  refine funext fun (j : S128x100.Idx) => ?_
  obtain ⟨r, k, rfl⟩ : ∃ (r : Fin 128) (k : Fin 100), j = ix2 r k := ⟨j 0, j 1, eq_ix2 j⟩
  have hemb : ((cfg1.win 2).blk t).view.emb (ix2 r k) = ix2 (⟨128 * (t.val / 4) + r.val, by omega⟩ : Fin 512) k := by
    funext a; apply Fin.ext
    match a with
    | ⟨0, _⟩ => show win1_2.index t (0 : Fin 2) * 128 + 1 * r.val = 128 * (t.val / 4) + r.val; omega
    | ⟨1, _⟩ => show win1_2.index t (1 : Fin 2) * 100 + 1 * k.val = k.val; omega
  show scAt V c t.val t.isLt (ix2 r k) = featX (V c main_v2) (((cfg1.win 2).blk t).view.emb (ix2 r k))
  rw [hemb]
  show _ = ∑ j : Fin 512, Ideal.exp (-(Spec.dist (V c main_v2) (⟨128 * (t.val / 4) + r.val, by omega⟩ : Fin 512) j k))
  have e : t.val = 4 * (t.val / 4) + 3 := by omega
  rw [scAt_congr V c e t.isLt (e ▸ t.isLt)]
  exact scAt_tile_apply V c (t.val / 4) _ r k _ rfl

/-- Every index of the output array is in the block of the last point of its row tile, which writes it back. -/
theorem covered1_2 (c : Dev nD) (i : ((cfg1.win 2).arr.view.loc (c.tc : Thread nD τ)).2.ty.Idx) :
    ∃ t : Fin cfg1.N, (cfg1.win 2).flush t = true ∧ i ∈ ((cfg1.win 2).blk t).view.set := by
  have hi0 : (i 0).val < 512 := (i 0).isLt
  have hi1 : (i 1).val < 100 := (i 1).isLt
  have hlt : 4 * ((i 0).val / 128) + 3 < cfg1.N := by rw [show cfg1.N = 16 from N_1]; omega
  obtain ⟨-, -, -, -, -, -, e6, e7⟩ := index1_facts ⟨4 * ((i 0).val / 128) + 3, hlt⟩
  refine ⟨⟨4 * ((i 0).val / 128) + 3, hlt⟩, (flush1_2 _).mpr (by show (4 * ((i 0).val / 128) + 3) % 4 = 3; omega), ?_⟩
  show i ∈ ((View.whole main_v3).slice (win1_2.rect ⟨4 * ((i 0).val / 128) + 3, hlt⟩)).set
  rw [View.set_slice_whole, Rect.mem_set_unit]
  intro a
  match a with
  | ⟨0, _⟩ =>
    show win1_2.index ⟨4 * ((i 0).val / 128) + 3, hlt⟩ (0 : Fin 2) * 128 ≤ (i 0).val
      ∧ (i 0).val < win1_2.index ⟨4 * ((i 0).val / 128) + 3, hlt⟩ (0 : Fin 2) * 128 + 128
    have e6' : win1_2.index ⟨4 * ((i 0).val / 128) + 3, hlt⟩ (0 : Fin 2) = (4 * ((i 0).val / 128) + 3) / 4 := e6
    omega
  | ⟨1, _⟩ =>
    show win1_2.index ⟨4 * ((i 0).val / 128) + 3, hlt⟩ (1 : Fin 2) * 100 ≤ (i 1).val
      ∧ (i 1).val < win1_2.index ⟨4 * ((i 0).val / 128) + 3, hlt⟩ (1 : Fin 2) * 100 + 100
    omega

theorem arrAt1_2 (V : (c : Dev nD) → (b : Ref sig .tc) → Buf (Elt Ideal) ((c : Thread nD τ).loc b)) (c : Dev nD) :
    (dat1 (F := Ideal) V c).arrAt 2 cfg1.N = featX (V c main_v2) := by
  exact (dat1 (F := Ideal) V c).arrAt_eq_of_cover 2 (featX (V c main_v2)) (fun t hf => flushed1_2_eq V c t hf) (covered1_2 c)

end Cert.KernelIdeal.Hand

end
-- ==== Proof.KI.Value.lean ====
/-
  The idealized kernel program's result as the specification. Region 0 leaves the projection `inputs · T` (the matrix
  unit's product into a zero accumulator is, at the ideal instance, the same sum of products as the host's dot, and the
  casts to bf16 are the identity); the host stretch lays it out as [B, D, K] (a reshape to [B, K, D], then the transpose
  of the last two axes); region 1 turns that layout into the features. So the result array is `feat` of the projection.
-/
import proofs.«162111_j16552803959337_1_alg».proof.Proof.KI.Run
import proofs.«162111_j16552803959337_1_alg».proof.Proof.KI.Value0
import proofs.«162111_j16552803959337_1_alg».proof.Proof.KI.Value1
import proofs.«162111_j16552803959337_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec
open scoped BigOperators

/-! ## The host stretch -/

section Host
variable {F : FTy → Type} [FloatOps F]
variable (m : (ℓ : Loc nD τ sig) → Buf (Elt F) ℓ) (ρ : Dev nD → PrngReg)

/-- Region 1's input array is the transpose of the reshape of region 0's output array. -/
theorem V2_main_v2 (c : Dev nD) :
    (V2 m ρ c main_v2 : Vec F S512x5x100 .f32)
      = transpose S512x5x100 [0, 2, 1] (shapeCast S512x100x5 (V1 m ρ c main_v0 : Vec F S512x500 .f32) shapeCasts_S512x500_S512x100x5)
          transposes_S512x100x5_S512x5x100_0_2_1 := by
  show StableHlo.after hostOps1 (W1 m ρ c) (Proc.devRef .tc main_v2) = _
  after_results
  rfl

end Host

/-- The reshape to [B, K, D] followed by the transpose of the last two axes is the [B, D, K] layout: entry (b, d, k) is
    entry (b, 5k + d) of the [B, K·D] array. -/
theorem transpose_reshape_eq_lay (y : Vec Ideal S512x500 .f32) :
    transpose S512x5x100 [0, 2, 1] (shapeCast S512x100x5 y shapeCasts_S512x500_S512x100x5) transposes_S512x100x5_S512x5x100_0_2_1
      = lay y := by
  funext i
  obtain ⟨b, d, k, rfl⟩ : ∃ (b : Fin 512) (d : Fin 5) (k : Fin 100), i = ix3 b d k := ⟨i 0, i 1, i 2, eq_ix3 i⟩
  rw [transpose_apply [0, 2, 1] (shapeCast S512x100x5 y shapeCasts_S512x500_S512x100x5) transposes_S512x100x5_S512x5x100_0_2_1
    (ix3 b d k) (ix3 b k d) (fun a => match a with | ⟨0, _⟩ => rfl | ⟨1, _⟩ => rfl | ⟨2, _⟩ => rfl)]
  rw [shapeCast_apply y shapeCasts_S512x500_S512x100x5 (ix3 b k d) (ix2 b (col k d))
    (by rewrite [Shape.rowMajor_val_two, Shape.rowMajor_val_three]
        have hb : b.val < 512 := b.isLt; have hk : k.val < 100 := k.isLt; have hd : d.val < 5 := d.isLt
        show b.val * 500 + (5 * k.val + d.val) = (b.val * 100 + k.val) * 5 + d.val
        omega)]
  rfl

/-! ## Region 0's product is the host's dot -/

/-- At the ideal instance the matrix unit's product of the two (cast) operands into a zero accumulator is the host's
    `dot_general` of them: both are the sum over the contracted axis of the products. -/
theorem k0_pay1_eq_dot (a : Vec Ideal S512x1024 .f32) (t : Vec Ideal S1024x500 .f32) :
    k0_pay1 (F := Ideal) a t
      = Host.dotGeneral (F := Ideal) (φ₁ := .f32) (φ₂ := .f32) dot_S512x1024_S1024x500_S512x500_1_0_0_1_n_n none a t := by
  funext j
  unfold k0_pay1
  simp only [Host.dotGeneral, matmul]
  rw [Ideal.matmul_constant_zero_apply, Ideal.dotGeneral_apply]
  rfl

/-! ## The result -/

variable (m : (ℓ : Loc nD τ sig) → Buf (Elt Ideal) ℓ) (ρ : Dev nD → PrngReg)

/-- The result array after the run is the features of the projection of the two argument arrays. -/
theorem W3_main_v3_eq (c : Dev nD) :
    (W3 m ρ c (Proc.devRef .tc main_v3) : Vec Ideal S512x100 .f32)
      = feat (Host.dotGeneral (F := Ideal) (φ₁ := .f32) (φ₂ := .f32) dot_S512x1024_S1024x500_S512x500_1_0_0_1_n_n none
          (m ((c : Thread nD τ).loc main_arg0) : Vec Ideal S512x1024 .f32) (m ((c : Thread nD τ).loc main_arg1) : Vec Ideal S1024x500 .f32)) := by
  rw [W3_v3, arrAt1_2 (V2 m ρ) c, V2_main_v2 m ρ c, transpose_reshape_eq_lay]
  have h0 : (V1 m ρ c main_v0 : Vec Ideal S512x500 .f32) = k0_pay1 (F := Ideal) (m ((c : Thread nD τ).loc main_arg0)) (m ((c : Thread nD τ).loc main_arg1)) :=
    ((hF0 m ρ c 2).symm).trans (arrAt0_2 (V0 m ρ) c)
  rw [h0, k0_pay1_eq_dot]
  rfl

end Cert.KernelIdeal.Hand

end
-- ==== Proof.Ref.lean ====
/-
  The reference program computes the specification: its run's result term, read one operation at a time at the ideal
  instance, is `feat` of the host's projection of the two argument arrays.
-/
import proofs.«162111_j16552803959337_1_alg».proof.Proof.Gen.ReferenceIdeal.Run
import proofs.«162111_j16552803959337_1_alg».proof.Proof.Gen.ReferenceIdeal.Read
import proofs.«162111_j16552803959337_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Spec
open scoped BigOperators

/-- The reshape [512, 500] → [512, 100, 5] read backwards: entry (b, k, d) is entry (b, 5k + d), since
    ((100 b + k) · 5 + d) = 500 b + (5k + d) with 5k + d < 500. -/
theorem idx_v1 (b : Fin 512) (k : Fin 100) (d : Fin 5) : Read.idx_main_v1 (ix3 b k d) = ix2 b (col k d) :=
  funext fun a => Fin.ext (by
    have hb := b.isLt; have hk := k.isLt; have hd := d.isLt
    match a with
    | ⟨0, _⟩ => show ((b.val * 100 + k.val) * 5 + d.val) / 500 = b.val; omega
    | ⟨1, _⟩ => show ((b.val * 100 + k.val) * 5 + d.val) % 500 = 5 * k.val + d.val; omega)

/-- The left operand of the difference at (b, k, d, j): through the two broadcasts, entry (b, k, d) of the reshaped array. -/
theorem idx_l (b : Fin 512) (k : Fin 100) (j : Fin 512) (d : Fin 5) :
    Read.idx_main_v2 (Read.idx_main_v5 (Read.idx_main_v9 (Read.idx_main_v12 (ix2 b k) j) d)) = ix3 b k d :=
  funext fun a => Fin.ext (by match a with | ⟨0, _⟩ => rfl | ⟨1, _⟩ => rfl | ⟨2, _⟩ => rfl)

/-- The right operand there: through the two broadcasts and the transpose, entry (j, k, d) of the reshaped array. -/
theorem idx_r (b : Fin 512) (k : Fin 100) (j : Fin 512) (d : Fin 5) :
    Read.idx_main_v3 (Read.idx_main_v4 (Read.idx_main_v6 (Read.idx_main_v9 (Read.idx_main_v12 (ix2 b k) j) d))) = ix3 j k d :=
  funext fun a => Fin.ext (by match a with | ⟨0, _⟩ => rfl | ⟨1, _⟩ => rfl | ⟨2, _⟩ => rfl)

/-- The reference's result, as a function of its two arguments, is the features of its own projection. -/
theorem val_eq_feat (x0 : (⟨S512x1024, .f32⟩ : BufTy).Contents (Elt Ideal)) (x1 : (⟨S1024x500, .f32⟩ : BufTy).Contents (Elt Ideal)) :
    Read.val_main_v12 (F := Ideal) x0 x1 = feat (Read.val_main_v0 (F := Ideal) x0 x1) := by
  funext i
  obtain ⟨b, k, rfl⟩ : ∃ (b : Fin 512) (k : Fin 100), i = ix2 b k := ⟨i 0, i 1, eq_ix2 i⟩
  rw [Read.val_main_v12_apply]
  simp only [Read.val_main_cst_0_apply, Read.val_main_v11_apply, Read.val_main_v10_apply, Read.val_main_v9_apply,
    Read.val_main_cst_apply, Read.val_main_v8_apply, Read.val_main_v7_apply, Read.val_main_v5_apply, Read.val_main_v2_apply,
    Read.val_main_v6_apply, Read.val_main_v4_apply, Read.val_main_v3_apply, Read.val_main_v1_apply,
    idx_l, idx_r, idx_v1,
    Ideal.hostUnary_exp_def, Ideal.hostNegf_def, Ideal.negf_def, Ideal.hostAbsf_def, Ideal.subf_def, Ideal.ofBits_def,
    Ideal.ofBits_zero_f32, zero_add]
  unfold feat featX Cert.Spec.dist lay absE
  rfl

end Cert.ReferenceIdeal.RefValue

end
-- ==== Proof.lean ====
/-
  The certificate of the MinibatchDiscrimination kernel against its jnp reference, over the extended reals.

  Both programs compute, for a row b and a kernel k, the sum over all rows j of exp(−‖x[b, k, ·] − x[j, k, ·]‖₁), where
  x = inputs · T is the projection, its 500 columns read as 100 kernels of 5 components. The kernel does it in two
  pipelined regions: a one-block matrix product (operands cast to bf16, the identity at the ideal instance), a host
  reshape and transpose to the [B, D, K] layout, and a 4 x 4 grid over (row tile, other-batch tile) that accumulates each
  row tile's sum over the four other-batch tiles in a scratch buffer and writes it back after the fourth. The reference
  broadcasts the projection against its own transpose and reduces twice on the host. The two meet in one function
  (`Cert.Spec.feat` of the projection): the kernel's four 128-row partial sums are the reference's 512-row sum, and the
  five absolute differences added one after the other from zero are the reference's reduction over the component axis —
  associativity and commutativity of addition on the extended reals only, so the finiteness of the inputs is never used.

  The three frames: each kernel program's run (KI/Run.lean and its word-level copy K/Run.lean: both regions' proof data
  and body obligations, the shared input array of region 1 dealt to its two windows along the share) ends with every
  unscoped buffer at a named contents, of which the arguments are the launch memory; the reference's is its host run.
  The ledger of the ideal pass is empty, so the idealization claim is trivial.
-/
import proofs.«162111_j16552803959337_1_alg».proof.Defs
import proofs.«162111_j16552803959337_1_alg».proof.Proof.Gen.Kernel
import proofs.«162111_j16552803959337_1_alg».proof.Proof.Gen.KernelIdeal
import proofs.«162111_j16552803959337_1_alg».proof.Proof.Gen.ReferenceIdeal
import proofs.«162111_j16552803959337_1_alg».proof.Proof.Gen.Pre_finite_inputs
import proofs.«162111_j16552803959337_1_alg».proof.Proof.K.Run
import proofs.«162111_j16552803959337_1_alg».proof.Proof.KI.Run
import proofs.«162111_j16552803959337_1_alg».proof.Proof.KI.Value
import proofs.«162111_j16552803959337_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel program runs to the end and leaves both arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel program likewise. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the result array at the features of the
    projection of the arguments: the kernel by its run read at the result array, the reference by its host run read one
    operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.feat (Host.dotGeneral (F := Ideal) (φ₁ := .f32) (φ₂ := .f32) Cert.KernelIdeal.dot_S512x1024_S1024x500_S512x500_1_0_0_1_n_n none
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · exact (θ_run Cert.KernelIdeal.defs _ _).mono (fun r h c =>
      ⟨(h c _ (Cert.KernelIdeal.Hand.mem_uc Cert.KernelIdeal.main_v3 (by decide))).trans (Cert.KernelIdeal.Hand.W3_main_v3_eq m ρ c),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.val_eq_feat, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
